-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S65536x33 : Shape := ⟨2, ![65536, 33]⟩
abbrev S65536x32 : Shape := ⟨2, ![65536, 32]⟩
abbrev S65536x1 : Shape := ⟨2, ![65536, 1]⟩
abbrev S_ : Shape := ⟨0, ![]⟩

class Facts : Prop where
  slices_S65536x33_S65536x32_0_0 : S65536x33.Slices ![0, 0] S65536x32
  slices_S65536x33_S65536x1_0_32 : S65536x33.Slices ![0, 32] S65536x1
  bcast_S_S65536x32 : S_.BroadcastsInDim S65536x32 (![] : Fin 0 → Fin S65536x32.rank)
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S65536x1_S65536x32_0_1 : S65536x1.BroadcastsInDim S65536x32 (![0, 1] : Fin 2 → Fin S65536x32.rank)
  reducesTo_S65536x32_S_d0_1 : S65536x32.ReducesTo [0, 1] S_

variable [Facts]

def fn {F : FTy → Type} [FloatOps F] (main_arg0 : FVec F S65536x1024 .f32) (main_arg1 : IVec S65536x33 32) : IVec S_ 1 :=
  let main_v0 : IVec S65536x32 32 := (extractStridedSlice S65536x32 ![0, 0] · slices_S65536x33_S65536x32_0_0) main_arg1
  let main_v1 : IVec S65536x1 32 := (extractStridedSlice S65536x1 ![0, 32] · slices_S65536x33_S65536x1_0_32) main_arg1
  let main_v2 : IVec S65536x32 32 := iotaInDim S65536x32 32 1
  let main_c : IVec S_ 32 := constantI S_ 32 0#32
  let main_v3 : IVec S65536x32 32 := broadcastInDim S65536x32 ![] bcast_S_S65536x32 main_c
  let main_v4 : IVec S65536x32 1 := cmpi .sge main_v0 main_v3
  let main_c_0 : IVec S_ 32 := constantI S_ 32 1024#32
  let main_v5 : IVec S65536x32 32 := broadcastInDim S65536x32 ![] bcast_S_S65536x32 main_c_0
  let main_v6 : IVec S65536x32 1 := cmpi .slt main_v0 main_v5
  let main_v7 : IVec S65536x32 1 := andi main_v4 main_v6
  let main_v8 : FVec F S65536x1024 .f32 := Host.absf main_arg0
  let main_cst : FVec F S_ .f32 := constant S_ .f32 0x7F800000#32
  let main_v9 : FVec F S65536x1024 .f32 := broadcastInDim S65536x1024 ![] bcast_S_S65536x1024 main_cst
  let main_v10 : IVec S65536x1024 1 := cmpf .olt main_v8 main_v9
  let main_c_1 : IVec S_ 1 := constantI S_ 1 1#1
  let main_v11 : IVec S_ 1 := (fun x v => Host.reduce IntOp.andi x v reducesTo_S65536x1024_S_d0_1 h_S_) main_v10 main_c_1
  let main_v12 : IVec S65536x32 32 := broadcastInDim S65536x32 ![0, 1] bcast_S65536x1_S65536x32_0_1 main_v1
  let main_v13 : IVec S65536x32 1 := cmpi .slt main_v2 main_v12
  let main_c_2 : IVec S_ 1 := constantI S_ 1 1#1
  let main_v14 : IVec S65536x32 1 := broadcastInDim S65536x32 ![] bcast_S_S65536x32 main_c_2
  let main_v15 : IVec S65536x32 1 := select main_v13 main_v7 main_v14
  let main_c_3 : IVec S_ 1 := constantI S_ 1 1#1
  let main_v16 : IVec S_ 1 := (fun x v => Host.reduce IntOp.andi x v reducesTo_S65536x32_S_d0_1 h_S_) main_v15 main_c_3
  let main_v17 : IVec S_ 1 := andi main_v11 main_v16
  main_v17
-- ==== Kernel.lean ====
abbrev S65536x1024 : Shape := ⟨2, ![65536, 1024]⟩
abbrev S65536x33 : Shape := ⟨2, ![65536, 33]⟩
abbrev S512x128 : Shape := ⟨2, ![512, 128]⟩
abbrev S1024x1024 : Shape := ⟨2, ![1024, 1024]⟩
abbrev S1024x33 : Shape := ⟨2, ![1024, 33]⟩
abbrev S8x128 : Shape := ⟨2, ![8, 128]⟩
abbrev S1024x32 : Shape := ⟨2, ![1024, 32]⟩
abbrev S1024x1 : Shape := ⟨2, ![1024, 1]⟩
abbrev S1x32 : Shape := ⟨2, ![1, 32]⟩
abbrev S1x1024 : Shape := ⟨2, ![1, 1024]⟩
abbrev S1024 : Shape := ⟨1, ![1024]⟩
abbrev S1x1024x1 : Shape := ⟨3, ![1, 1024, 1]⟩
abbrev S1 : Shape := ⟨1, ![1]⟩
abbrev S1x1x1 : Shape := ⟨3, ![1, 1, 1]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S65536x33, .i32⟩
  | .hbm, ⟨2, _⟩ => ⟨S512x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x33, .i32⟩
  | .local _ .vmem, ⟨3, _⟩ => ⟨S1024x33, .i32⟩
  | .local _ .vmem, ⟨4, _⟩ => ⟨S8x128, .f32⟩
  | .local _ .vmem, ⟨5, _⟩ => ⟨S8x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x33 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x33_S1024x33_0_0 : ∀ a, (![0, 0] : Fin 2 → Nat) a + S1024x33.size a ≤ S1024x33.size a
  h_S1024x33 : 0 < S1024x33.numel
  slices_S1024x33_o0_0_S1024x32 : S1024x33.Slices ![0, 0] S1024x32
  slices_S1024x33_o0_32_S1024x1 : S1024x33.Slices ![0, 32] S1024x1
  iota_S1x32_d1_w32 : S1x32.Iotas .tc 32 [1]
  broadcasts_S1x32_S1024x32 : S1x32.Broadcasts S1024x32
  broadcasts_S1024x1_S1024x32 : S1024x1.Broadcasts S1024x32
  iota_S1x1024_d1_w32 : S1x1024.Iotas .tc 32 [1]
  slices_S1024x32_o0_0_S1024x1 : S1024x32.Slices ![0, 0] S1024x1
  broadcasts_S1024x1_S1024x1024 : S1024x1.Broadcasts S1024x1024
  broadcasts_S1x1024_S1024x1024 : S1x1024.Broadcasts S1024x1024
  natLt_1_32 : 1 < 32
  bitsLt_bf16_f32 : FTy.bits .bf16 < FTy.bits .f32
  slices_S1024x32_o0_1_S1024x1 : S1024x32.Slices ![0, 1] S1024x1
  slices_S1024x32_o0_2_S1024x1 : S1024x32.Slices ![0, 2] S1024x1
  slices_S1024x32_o0_3_S1024x1 : S1024x32.Slices ![0, 3] S1024x1
  slices_S1024x32_o0_4_S1024x1 : S1024x32.Slices ![0, 4] S1024x1
  slices_S1024x32_o0_5_S1024x1 : S1024x32.Slices ![0, 5] S1024x1
  slices_S1024x32_o0_6_S1024x1 : S1024x32.Slices ![0, 6] S1024x1
  slices_S1024x32_o0_7_S1024x1 : S1024x32.Slices ![0, 7] S1024x1
  slices_S1024x32_o0_8_S1024x1 : S1024x32.Slices ![0, 8] S1024x1
  slices_S1024x32_o0_9_S1024x1 : S1024x32.Slices ![0, 9] S1024x1
  slices_S1024x32_o0_10_S1024x1 : S1024x32.Slices ![0, 10] S1024x1
  slices_S1024x32_o0_11_S1024x1 : S1024x32.Slices ![0, 11] S1024x1
  slices_S1024x32_o0_12_S1024x1 : S1024x32.Slices ![0, 12] S1024x1
  slices_S1024x32_o0_13_S1024x1 : S1024x32.Slices ![0, 13] S1024x1
  slices_S1024x32_o0_14_S1024x1 : S1024x32.Slices ![0, 14] S1024x1
  slices_S1024x32_o0_15_S1024x1 : S1024x32.Slices ![0, 15] S1024x1
  slices_S1024x32_o0_16_S1024x1 : S1024x32.Slices ![0, 16] S1024x1
  slices_S1024x32_o0_17_S1024x1 : S1024x32.Slices ![0, 17] S1024x1
  slices_S1024x32_o0_18_S1024x1 : S1024x32.Slices ![0, 18] S1024x1
  slices_S1024x32_o0_19_S1024x1 : S1024x32.Slices ![0, 19] S1024x1
  slices_S1024x32_o0_20_S1024x1 : S1024x32.Slices ![0, 20] S1024x1
  slices_S1024x32_o0_21_S1024x1 : S1024x32.Slices ![0, 21] S1024x1
  slices_S1024x32_o0_22_S1024x1 : S1024x32.Slices ![0, 22] S1024x1
  slices_S1024x32_o0_23_S1024x1 : S1024x32.Slices ![0, 23] S1024x1
  slices_S1024x32_o0_24_S1024x1 : S1024x32.Slices ![0, 24] S1024x1
  slices_S1024x32_o0_25_S1024x1 : S1024x32.Slices ![0, 25] S1024x1
  slices_S1024x32_o0_26_S1024x1 : S1024x32.Slices ![0, 26] S1024x1
  slices_S1024x32_o0_27_S1024x1 : S1024x32.Slices ![0, 27] S1024x1
  slices_S1024x32_o0_28_S1024x1 : S1024x32.Slices ![0, 28] S1024x1
  slices_S1024x32_o0_29_S1024x1 : S1024x32.Slices ![0, 29] S1024x1
  slices_S1024x32_o0_30_S1024x1 : S1024x32.Slices ![0, 30] S1024x1
  slices_S1024x32_o0_31_S1024x1 : S1024x32.Slices ![0, 31] S1024x1
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  shapeCasts_S1024x1_S1x1024x1 : S1024x1.ShapeCasts S1x1024x1
  reduces_S1x1024x1_S1 : S1x1024x1.Reduces [1, 2] S1
  shapeCasts_S1_S1x1x1 : S1.ShapeCasts S1x1x1
  inpos_S1x1x1_p0_0_0 : ∀ a, (![0, 0, 0] : Fin 3 → Nat) a < S1x1x1.size a
  inb_S8x128_S8x128_0_0 : ∀ a, (![0, 0] : Fin 2 → Nat) a + S8x128.size a ≤ S8x128.size a
  h_S8x128 : 0 < S8x128.numel
  reducesTo_S512x128_S_d0_1 : S512x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x33.size a ≤ S65536x33.size a
  hwx0_1 : ∀ i : grid0.Coords, EltTy.bits .i32 = 32 ∨ (Rect.block (s := S65536x33) S1024x33.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S512x128.size a
  hwx0_2 : ∀ i : grid0.Coords, EltTy.bits .f32 = 32 ∨ (Rect.block (s := S512x128) S8x128.size (cc0_transform_2 i) (hinb0_2 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x33.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S65536x33 : Shape := ⟨2, ![65536, 33]⟩
abbrev S65536x32 : Shape := ⟨2, ![65536, 32]⟩
abbrev S65536x1 : Shape := ⟨2, ![65536, 1]⟩
abbrev S65536 : Shape := ⟨1, ![65536]⟩
abbrev S32 : Shape := ⟨1, ![32]⟩
abbrev S1x32 : Shape := ⟨2, ![1, 32]⟩
abbrev S_ : Shape := ⟨0, ![]⟩
abbrev S65536x32x1 : Shape := ⟨3, ![65536, 32, 1]⟩
abbrev S1 : Shape := ⟨1, ![1]⟩
abbrev S1x1x1 : Shape := ⟨3, ![1, 1, 1]⟩

abbrev nBuf : Space → Nat
  | .hbm => 47
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x33, .i32⟩
  | .hbm, ⟨2, _⟩ => ⟨S65536x32, .i32⟩
  | .hbm, ⟨3, _⟩ => ⟨S65536x1, .i32⟩
  | .hbm, ⟨4, _⟩ => ⟨S65536, .i32⟩
  | .hbm, ⟨5, _⟩ => ⟨S32, .i32⟩
  | .hbm, ⟨6, _⟩ => ⟨S65536x1, .i32⟩
  | .hbm, ⟨7, _⟩ => ⟨S1x32, .i32⟩
  | .hbm, ⟨8, _⟩ => ⟨S65536x32, .i32⟩
  | .hbm, ⟨9, _⟩ => ⟨S65536x32, .i32⟩
  | .hbm, ⟨10, _⟩ => ⟨S65536x32, .i1⟩
  | .hbm, ⟨11, _⟩ => ⟨S_, .i32⟩
  | .hbm, ⟨12, _⟩ => ⟨S65536x32, .i32⟩
  | .hbm, ⟨13, _⟩ => ⟨S65536x32, .i1⟩
  | .hbm, ⟨14, _⟩ => ⟨S_, .i32⟩
  | .hbm, ⟨15, _⟩ => ⟨S65536x32, .i32⟩
  | .hbm, ⟨16, _⟩ => ⟨S65536x32, .i32⟩
  | .hbm, ⟨17, _⟩ => ⟨S65536x32, .i32⟩
  | .hbm, ⟨18, _⟩ => ⟨S65536x32x1, .i32⟩
  | .hbm, ⟨19, _⟩ => ⟨S1, .i32⟩
  | .hbm, ⟨20, _⟩ => ⟨S_, .i32⟩
  | .hbm, ⟨21, _⟩ => ⟨S65536x32x1, .i32⟩
  | .hbm, ⟨22, _⟩ => ⟨S65536x32x1, .i1⟩
  | .hbm, ⟨23, _⟩ => ⟨S1x1x1, .i32⟩
  | .hbm, ⟨24, _⟩ => ⟨S65536x32x1, .i32⟩
  | .hbm, ⟨25, _⟩ => ⟨S65536x32x1, .i1⟩
  | .hbm, ⟨26, _⟩ => ⟨S65536x32x1, .i1⟩
  | .hbm, ⟨27, _⟩ => ⟨S_, .i1⟩
  | .hbm, ⟨28, _⟩ => ⟨S65536x32, .i1⟩
  | .hbm, ⟨29, _⟩ => ⟨S65536x32, .f32⟩
  | .hbm, ⟨30, _⟩ => ⟨S_, .f32⟩
  | .hbm, ⟨31, _⟩ => ⟨S65536x32, .f32⟩
  | .hbm, ⟨32, _⟩ => ⟨S65536x32, .f32⟩
  | .hbm, ⟨33, _⟩ => ⟨S_, .f32⟩
  | .hbm, ⟨34, _⟩ => ⟨S65536x32, .f32⟩
  | .hbm, ⟨35, _⟩ => ⟨S65536x32, .f32⟩
  | .hbm, ⟨36, _⟩ => ⟨S_, .f32⟩
  | .hbm, ⟨37, _⟩ => ⟨S65536, .f32⟩
  | .hbm, ⟨38, _⟩ => ⟨S_, .f32⟩
  | .hbm, ⟨39, _⟩ => ⟨S65536, .f32⟩
  | .hbm, ⟨40, _⟩ => ⟨S65536, .f32⟩
  | .hbm, ⟨41, _⟩ => ⟨S65536, .f32⟩
  | .hbm, ⟨42, _⟩ => ⟨S65536, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_cst : Ref sig .tc := ⟨.hbm, 30, rfl⟩
abbrev main_call0_v14 : Ref sig .tc := ⟨.hbm, 31, rfl⟩
abbrev main_v9 : Ref sig .tc := ⟨.hbm, 32, rfl⟩
abbrev main_cst : Ref sig .tc := ⟨.hbm, 33, rfl⟩
abbrev main_call1_v0 : Ref sig .tc := ⟨.hbm, 34, rfl⟩
abbrev main_v10 : Ref sig .tc := ⟨.hbm, 35, rfl⟩
abbrev main_cst_0 : Ref sig .tc := ⟨.hbm, 36, rfl⟩
abbrev main_v11 : Ref sig .tc := ⟨.hbm, 37, rfl⟩
abbrev main_cst_1 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_2 : Ref sig .tc := ⟨.hbm, 43, rfl⟩
abbrev main_v16 : Ref sig .tc := ⟨.hbm, 44, rfl⟩
abbrev main_cst_3 : Ref sig .tc := ⟨.hbm, 45, rfl⟩
abbrev main_v17 : Ref sig .tc := ⟨.hbm, 46, rfl⟩

abbrev nD : Nat := 1
abbrev τ : Topo := Topo.v7x

variable {F : FTy → Type} [FloatOps F]

class Facts₀ : Prop where
  slices_S65536x33_S65536x32_0_0 : S65536x33.Slices ![0, 0] S65536x32
  slices_S65536x33_S65536x1_0_32 : S65536x33.Slices ![0, 32] S65536x1
  shapeCasts_S65536x1_S65536 : S65536x1.ShapeCasts S65536
  bcast_S65536_S65536x1_0 : S65536.BroadcastsInDim S65536x1 (![0] : Fin 1 → Fin S65536x1.rank)
  bcast_S32_S1x32_1 : S32.BroadcastsInDim S1x32 (![1] : Fin 1 → Fin S1x32.rank)
  bcast_S1x32_S65536x32_0_1 : S1x32.BroadcastsInDim S65536x32 (![0, 1] : Fin 2 → Fin S65536x32.rank)
  bcast_S65536x1_S65536x32_0_1 : S65536x1.BroadcastsInDim S65536x32 (![0, 1] : Fin 2 → Fin S65536x32.rank)
  bcast_S_S65536x32 : S_.BroadcastsInDim S65536x32 (![] : Fin 0 → Fin S65536x32.rank)
  shapeCasts_S65536x32_S65536x32x1 : S65536x32.ShapeCasts S65536x32x1
  bcast_S_S65536x32x1 : S_.BroadcastsInDim S65536x32x1 (![] : Fin 0 → Fin S65536x32x1.rank)
  bcast_S1_S1x1x1_2 : S1.BroadcastsInDim S1x1x1 (![2] : Fin 1 → Fin S1x1x1.rank)
  bcast_S1x1x1_S65536x32x1_0_1_2 : S1x1x1.BroadcastsInDim S65536x32x1 (![0, 1, 2] : Fin 3 → Fin S65536x32x1.rank)
  reducesTo_S65536x32x1_S65536x32_d2 : S65536x32x1.ReducesTo [2] S65536x32
  h_S_ : 0 < S_.numel
  reducesTo_S65536x32_S65536_d1 : S65536x32.ReducesTo [1] S65536
  bcast_S_S65536 : S_.BroadcastsInDim S65536 (![] : Fin 0 → Fin S65536.rank)
  reducesTo_S65536_S_d0 : S65536.ReducesTo [0] S_
  gather_S65536x1024_S65536x32x1_S65536x32_n_1_0_0_1_2_11_wf : GatherDims.WF S65536x1024 S65536x32x1 S65536x32 [] [1] [0] [1] [0] 2 ![1, 1]

variable [Facts₀]

def gather_S65536x1024_S65536x32x1_S65536x32_n_1_0_0_1_2_11 : GatherDims S65536x1024 S65536x32x1 S65536x32 where
  offsetDims := []
  collapsedSliceDims := [1]
  operandBatchingDims := [0]
  startIndicesBatchingDims := [0]
  startIndexMap := [1]
  indexVectorDim := 2
  sliceSizes := ![1, 1]
  wf := gather_S65536x1024_S65536x32x1_S65536x32_n_1_0_0_1_2_11_wf

class Facts : Prop extends Facts₀ where

variable [Facts]
-- ==== Proof.LibRowsCols.lean ====
/-
  Rows and columns of a rank-2 vector read at an index, at any extents.

  A vector of `a` entries viewed as an `a × 1` column reads its entry at every `(i, 0)`; a column spread across `b`
  lanes reads, at `(i, j)`, the column's entry `i`. A sum over the lane axis of an `a × b` vector, at row `i`, is the
  sum of that row's entries; over the sublane axis, at lane `j`, the sum of that lane's column. A maximum over the lane
  axis, at row `i`, is the maximum of the row's entries taken from the accumulator's value, in any order.
-/
import Idealize.ShloMosaic.PureOps.Ideal.Laws
import Idealize.ShloMosaic.Lib.Pipeline.Value
import Idealize.ShloMosaic.Lib.ValueIdx

noncomputable section

namespace Idealize.ShloMosaic.RowsCols

open Idealize.ShloMosaic Idealize.ShloMosaic.ValueIdx

variable {α : Type}

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

variable {φ : FTy}

/-- The sum over the lanes of an `[a, b]` vector, at row `i`: the sum of the row. -/
theorem laneSum_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) := by
  rw [Ideal.multiReduction_add_single]
  show ∑ k : Fin b, src (h.lift (ix1 i) k) = _
  refine Finset.sum_congr rfl fun k _ => congrArg src (funext fun c => Fin.ext ?_)
  match c with
  | ⟨0, _⟩ => rfl
  | ⟨1, _⟩ => rfl

/-- The sum over the sublanes of an `[a, b]` vector, at lane `j`: the sum of the column. -/
theorem sublaneSum_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) := by
  rw [Ideal.multiReduction_add_single]
  show ∑ k : Fin a, src (h.lift (ix1 j) k) = _
  refine Finset.sum_congr rfl fun k _ => congrArg src (funext fun c => Fin.ext ?_)
  match c with
  | ⟨0, _⟩ => rfl
  | ⟨1, _⟩ => rfl

/-- The maximum over the lanes of an `[a, b]` vector, at row `i`: the maximum of the row, from the accumulator's value. -/
theorem laneMax_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  show (Finset.univ : Finset (Fin b)).fold max (Ideal.ofBits φ acc) (src ∘ h.lift (ix1 i)) = _
  refine congrArg (fun g => (Finset.univ : Finset (Fin b)).fold max (Ideal.ofBits φ acc) g)
    (funext fun k => congrArg src (funext fun c => Fin.ext ?_))
  match c with
  | ⟨0, _⟩ => rfl
  | ⟨1, _⟩ => rfl

end Idealize.ShloMosaic.RowsCols

end
-- ==== Proof.KernelCount.lean ====
/-
  The kernel body's count matrix, entry by entry.

  The body masks the 1024 × 32 label block (a slot that does not count becomes the word −1), and for each of the 32 slots
  compares the slot's column of words, spread across the 1024 lanes, with the lane numbers 0 … 1023; each compare is widened
  to a word, converted to a float and added to an accumulator that starts at zero. At the extended reals every conversion
  is exact and every change of format the identity, so entry (p, q) of the accumulator after all 32 steps is the sum over
  the slots j of 1 where the masked label (p, j) is the word q, and 0 elsewhere.
-/
import proofs.«422857_j44676249813136_2_alg».proof.Proof.Gen.KernelIdeal.Skeleton
import proofs.«422857_j44676249813136_2_alg».proof.Proof.LibRowsCols
import Idealize.ShloMosaic.Lib.Pipeline.Value
import Idealize.ShloMosaic.Lib.ValueIdx
import Idealize.ShloMosaic.Lib.IdealHost

noncomputable section

open scoped BigOperators

namespace Cert.KernelIdeal.Count

open Cert.KernelIdeal Cert.KernelIdeal.Gen Idealize.ShloMosaic Idealize.ShloMosaic.ValueIdx

/-- Slot j (read modulo 32) of row p of a 1024 × 32 block of words. -/
def slot (lm : IVec S1024x32 32) (p : Fin 1024) (j : ℕ) : BitVec 32 :=
  lm (ix2 p (⟨j % 32, Nat.mod_lt _ (by decide)⟩ : Fin 32))

/-- The compare of one step: is slot j of row p the word that lane q carries? -/
def hitBit (lm : IVec S1024x32 32) (lanes : IVec S1x1024 32) (p q : Fin 1024) (j : ℕ) : BitVec 1 :=
  IntOp.cmpi .eq (slot lm p j) (lanes (ix2 (0 : Fin 1) q))

/-- The same as the extended real the step adds: the widened bit read as a signed integer. -/
def hit (lm : IVec S1024x32 32) (lanes : IVec S1x1024 32) (p q : Fin 1024) (j : ℕ) : EReal :=
  FloatOps.sitofp (F := Ideal) .f32 ((hitBit lm lanes p q j).setWidth 32)

/-- A 1 × 1024 row spread down 1024 sublanes reads, at (p, q), the row at (0, q). -/
theorem spreadRows_apply {α : Type} (v : S1x1024.Idx → α) (h : S1x1024.Broadcasts S1024x1024) (p q : Fin 1024) :
    broadcastTo S1024x1024 v h (ix2 p q) = v (ix2 (0 : Fin 1) q) := by
  refine broadcastTo_apply v h (ix2 p q) (ix2 (0 : Fin 1) q) fun ax => ?_
  match ax with
  | ⟨0, _⟩ => rfl
  | ⟨1, _⟩ => rfl

/-- One step's compare at entry (p, q): slot j of row p against lane q's word. -/
theorem cmp_apply (lm : IVec S1024x32 32) (lanes : IVec S1x1024 32) (j : ℕ) (hs : S1024x32.Slices ![0, j] S1024x1)
    (hb1 : S1024x1.Broadcasts S1024x1024) (hb2 : S1x1024.Broadcasts S1024x1024) (p q : Fin 1024) :
    cmpi .eq (broadcastTo S1024x1024 (extractStridedSlice S1024x1 ![0, j] lm hs) hb1) (broadcastTo S1024x1024 lanes hb2) (ix2 p q)
      = hitBit lm lanes p q j := by
  have hj : j < 32 := by
    obtain ⟨_, ha⟩ := hs
    have h1 : j + 1 ≤ 32 := ha (1 : Fin 2)
    omega
  show IntOp.cmpi .eq (broadcastTo S1024x1024 (extractStridedSlice S1024x1 ![0, j] lm hs) hb1 (ix2 p q))
      (broadcastTo S1024x1024 lanes hb2 (ix2 p q)) = _
  rw [Idealize.ShloMosaic.RowsCols.broadcastTo_a1_ab_apply, spreadRows_apply,
    extractStridedSlice_apply ![0, j] lm hs (ix2 p (0 : Fin 1)) (ix2 p (⟨j, hj⟩ : Fin 32)) (fun a => match a with
      | ⟨0, _⟩ => by show p.val = 0 + p.val; omega
      | ⟨1, _⟩ => by show j = j + 0; omega)]
  unfold hitBit slot
  congr 3
  exact Fin.ext (Nat.mod_eq_of_lt hj).symm

/-- The lane numbers 0 … 1023 the body compares the labels with. -/
abbrev lanes : IVec S1x1024 32 := iota .tc S1x1024 32 [1] iota_S1x1024_d1_w32

/-- The accumulator after the first 28 steps, as the body's payload terms compose it from the label block. -/
def acc28 (x1 : Vec Ideal S1024x33 .i32) : FVec Ideal S1024x1024 .bf16 :=
  k0_pay7 (k0_pay1 x1) lanes
    (k0_pay5 (k0_pay1 x1) lanes (k0_pay4 (k0_pay1 x1) lanes (k0_pay2 x1) (k0_pay3 x1)))
    (k0_pay6 (k0_pay1 x1) lanes)

/-- The zero the accumulator starts from. -/
theorem start_zero : (Scalar.ofBits (F := Ideal) .bf16 0x0000#16 : EReal) = 0 := Ideal.ofBits_zero_bf16

set_option maxHeartbeats 1000000 in
/-- Entry (p, q) of the accumulator after 28 steps: the number of slots j < 28 whose masked label is lane q's word. -/
theorem acc28_apply (x1 : Vec Ideal S1024x33 .i32) (p q : Fin 1024) :
    acc28 x1 (ix2 p q) = ∑ j ∈ Finset.range 28, hit (k0_pay1 x1) lanes p q j := by
  unfold acc28 k0_pay7 k0_pay6 k0_pay5 k0_pay4 k0_pay3 k0_pay2
  simp only [addf_apply, truncf_apply, sitofp_apply, extui_apply, cmp_apply, broadcast_apply, Finset.sum_range_succ,
    Finset.sum_range_zero, hit, start_zero]

end Cert.KernelIdeal.Count

end
-- ==== Proof.LibSumIdx.lean ====
/-
  Sums over a rank-1 and a rank-3 index set as iterated sums over the coordinates: the index set of a shape
  `[n]` is `Fin n`, that of `[n0, n1, n2]` is `Fin n0 × Fin n1 × Fin n2`, so a sum over all indices of an array
  is the sum over its first coordinate of the sum over its second of the sum over its third. Stated for any
  additive commutative monoid; the rank-2 case is the library's `ValueIdx.sum_idx2`.
-/
import Idealize.ShloMosaic.Lib.ValueIdx

noncomputable section

open scoped BigOperators

namespace Cert.LibSumIdx

open Idealize.ShloMosaic Idealize.ShloMosaic.ValueIdx

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates, outermost first. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibSumIdx

end
-- ==== Proof.KernelTile.lean ====
/-
  What the kernel body leaves in its output block: every entry is the tile's loss.

  From a 1024 × 1024 block of predictions and the matching 1024 × 33 block of labels the body forms the count matrix
  (entry (p, q): how many counted slots of row p hold label q), multiplies it into the predictions entry by entry, sums each
  row over the lanes, adds the tolerance, takes the logarithm, subtracts it from zero, sums the 1024 rows and stores that
  one number at every entry of the 8 × 128 output block.
-/
import proofs.«422857_j44676249813136_2_alg».proof.Proof.KernelCount
import proofs.«422857_j44676249813136_2_alg».proof.Proof.LibSumIdx
import proofs.«422857_j44676249813136_2_alg».proof.Proof.Gen.KernelIdeal.Frame
import Idealize.ShloMosaic.PureOps.Ideal.Laws

noncomputable section

open scoped BigOperators

namespace Cert.KernelIdeal.Tile

open Cert.KernelIdeal Cert.KernelIdeal.Gen Cert.KernelIdeal.Count Idealize.ShloMosaic Idealize.ShloMosaic.ValueIdx

/-- Entry (p, q) of the count matrix after all 32 steps. -/
def cnt (x1 : Vec Ideal S1024x33 .i32) (p q : Fin 1024) : EReal :=
  ∑ j ∈ Finset.range 32, hit (k0_pay1 x1) lanes p q j

/-- Row p's sum: the predictions of the row weighted by the counts. -/
def rowB (x0 : Vec Ideal S1024x1024 .f32) (x1 : Vec Ideal S1024x33 .i32) (p : Fin 1024) : EReal :=
  ∑ k : Fin 1024, x0 (ix2 p k) * cnt x1 p k

/-- Row p's loss as the body computes it: zero minus the logarithm of the row sum plus the tolerance. -/
def lossB (x0 : Vec Ideal S1024x1024 .f32) (x1 : Vec Ideal S1024x33 .i32) (p : Fin 1024) : EReal :=
  0 - Ideal.log (rowB x0 x1 p + Ideal.ofBits .f32 0x358637BD#32)

/-- The tile's loss: the sum of its 1024 row losses. -/
def tileB (x0 : Vec Ideal S1024x1024 .f32) (x1 : Vec Ideal S1024x33 .i32) : EReal :=
  ∑ p : Fin 1024, lossB x0 x1 p

/-- A one-entry vector viewed 1 × 1 × 1 reads its entry. -/
theorem cast_1_111_apply {α : Type} (v : S1.Idx → α) (h : S1.ShapeCasts S1x1x1) (i : S1x1x1.Idx) :
    shapeCast S1x1x1 v h i = v (ix1 (0 : Fin 1)) :=
  shapeCast_apply v h i (ix1 (0 : Fin 1)) (by
    rw [Shape.rowMajor_val_one, Shape.rowMajor_val_three]
    have h0 : (i 0).val < 1 := (i 0).isLt
    have h1 : (i 1).val < 1 := (i 1).isLt
    have h2 : (i 2).val < 1 := (i 2).isLt
    show 0 = ((i 0).val * 1 + (i 1).val) * 1 + (i 2).val
    omega)

/-- A 1024 × 1 column viewed 1 × 1024 × 1 reads, at (u, p, w), the column at (p, 0). -/
theorem cast_a1_1a1_apply {α : Type} (v : S1024x1.Idx → α) (h : S1024x1.ShapeCasts S1x1024x1) (u : Fin 1) (p : Fin 1024) (w : Fin 1) :
    shapeCast S1x1024x1 v h (ix3 u p w) = v (ix2 p (0 : Fin 1)) :=
  shapeCast_apply v h (ix3 u p w) (ix2 p (0 : Fin 1)) (by
    rw [Shape.rowMajor_val_two, Shape.rowMajor_val_three]
    have hu : u.val = 0 := by omega
    have hw : w.val = 0 := by omega
    show p.val * 1 + 0 = (u.val * 1024 + p.val) * 1 + w.val
    omega)

/-- The logarithm of a vector at an index. -/
theorem log_apply {s : Shape} {φ : FTy} (x : FVec Ideal s φ) (i : s.Idx) : log x i = Ideal.log (x i) := rfl

/-- The zero the loss is subtracted from. -/
theorem zero_word : (Scalar.ofBits (F := Ideal) .f32 0x00000000#32 : EReal) = 0 := Ideal.ofBits_zero_f32

set_option maxHeartbeats 1000000 in
/-- Every entry of the body's stored value is the tile's loss. -/
theorem pay8_apply (x0 : Vec Ideal S1024x1024 .f32) (x1 : Vec Ideal S1024x33 .i32) (y : S8x128.Idx) :
    k0_pay8 (k0_pay1 x1) lanes (acc28 x1) x0 y = tileB x0 x1 := by
  unfold k0_pay8
  simp only [broadcast_apply, extractAt, cast_1_111_apply]
  refine (Ideal.multiReduction_add_total _ _ _ (fun b => match b with | ⟨0, _⟩ => rfl) _ _ _).trans ?_
  rw [Cert.LibSumIdx.sum_idx3]
  simp only [Fin.sum_univ_one]
  unfold tileB
  refine Finset.sum_congr rfl fun p _ => ?_
  rw [cast_a1_1a1_apply]
  simp only [subf_apply, broadcast_apply, log_apply, addf_apply, Idealize.ShloMosaic.RowsCols.shapeCast_a_a1_apply,
    Ideal.ofBits_def, Ideal.ofBits_zero_f32]
  unfold lossB rowB
  refine congrArg (fun z : EReal => 0 - Ideal.log (z + Ideal.ofBits .f32 0x358637BD#32)) ?_
  refine (Idealize.ShloMosaic.RowsCols.laneSum_apply _ _ _ _ _ p).trans ?_
  refine Finset.sum_congr rfl fun k _ => ?_
  simp only [mulf_apply, extf_apply, addf_apply, truncf_apply, sitofp_apply, extui_apply, cmp_apply, acc28_apply]
  unfold cnt
  simp only [Finset.sum_range_succ, Finset.sum_range_zero, hit]

end Cert.KernelIdeal.Tile

end
-- ==== Proof.KernelArray.lean ====
/-
  The kernel program's result from its blocks.

  The program runs its body once for each of 64 tiles. Tile t reads rows 1024t … 1024t + 1023 of the 65536 × 1024
  prediction array (all 1024 columns) and the same rows of the 65536 × 33 label array, and writes rows 8t … 8t + 7 of a
  512 × 128 array of partial sums. The host then adds up all 512 × 128 partial sums from zero and divides by 2^26.

  Here the body's arithmetic stays closed: what the body leaves is the frame module's term `Gen.out0_2` of the two blocks
  it read. What is shown is the bookkeeping around it: each block the body sees is the rows of its tile of the argument
  array; entry (r, l) of the partial-sum array is what the body left for tile r / 8 at position (r % 8, l); those tiles
  cover the array; and the result is the quotient of the total of the array by the divisor, the arguments unchanged.
-/
import proofs.«422857_j44676249813136_2_alg».proof.Proof.Gen.KernelIdeal.Frame
import Idealize.ShloMosaic.Lib.Pipeline.Value
import Idealize.ShloMosaic.Lib.ValueIdx
import Idealize.ShloMosaic.Lib.IdealHost
import Idealize.ShloMosaic.PureOps.Ideal.Laws
import Idealize.ShloMosaic.Lib.StableHlo.Run

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The blocks, as functions of the argument arrays -/

/-- Tile t's block of the predictions: rows 1024t … 1024t + 1023, every column. -/
def prdBlk (x0 : FVec Ideal S65536x1024 .f32) (t : Fin 64) : Vec Ideal S1024x1024 .f32 :=
  fun y => x0 (ix2 (⟨1024 * t.val + (y 0).val, by have := idx2_lt0 y; have := t.isLt; omega⟩ : Fin 65536)
    (⟨(y 1).val, idx2_lt1 y⟩ : Fin 1024))

/-- Tile t's block of the labels: the same rows, all 33 columns. -/
def tgtBlk (x1 : IVec S65536x33 32) (t : Fin 64) : Vec Ideal S1024x33 .i32 :=
  fun y => x1 (ix2 (⟨1024 * t.val + (y 0).val, by have := idx2_lt0 y; have := t.isLt; omega⟩ : Fin 65536)
    (⟨(y 1).val, idx2_lt1 y⟩ : Fin 33))

/-- The tile that writes row r of the 512: r / 8. -/
def tileOf (i : S512x128.Idx) : Fin 64 := ⟨(i 0).val / 8, by have := idx2_lt0 i; omega⟩

/-- Where entry (r, l) sits inside its tile's 8 × 128 block: (r % 8, l). -/
def within (i : S512x128.Idx) : S8x128.Idx :=
  ix2 (⟨(i 0).val % 8, Nat.mod_lt _ (by decide)⟩ : Fin 8) (⟨(i 1).val, idx2_lt1 i⟩ : Fin 128)

/-- The partial-sum array: entry i is what the body leaves for i's tile, read at i's place inside the tile. -/
def outArr (x0 : FVec Ideal S65536x1024 .f32) (x1 : IVec S65536x33 32) : S512x128.Idx → EReal :=
  fun i => out0_2 (F := Ideal) (prdBlk x0 (tileOf i)) (tgtBlk x1 (tileOf i)) (within i)

/-- A grid point as a tile number. -/
abbrev tile (t : Fin cfg0.N) : Fin 64 := t.cast N_0

/-- The printed index maps over the grid: every window's block index at point t is (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The prediction window's block at point t is tile t's block of the prediction argument. -/
theorem iblk0_eq (c : Dev nD) (t : Fin cfg0.N) :
    (iblk m c 0 t : Vec Ideal S1024x1024 .f32) = prdBlk (m ((c : Thread nD τ).loc main_arg0)) (tile t) := by
  obtain ⟨e0, e1, -⟩ := idx_facts t
  funext y
  show V m c main_arg0 (((cfg0.win 0).blk t).view.emb y) = m ((c : Thread nD τ).loc main_arg0) _
  rw [V_main_arg0]
  congr 1
  funext a
  apply Fin.ext
  match a with
  | ⟨0, _⟩ => show win0_0.index t (0 : Fin 2) * 1024 + 1 * (y 0).val = 1024 * t.val + (y 0).val; omega
  | ⟨1, _⟩ => show win0_0.index t (1 : Fin 2) * 1024 + 1 * (y 1).val = (y 1).val; omega

/-- The label window's block at point t is tile t's block of the label argument. -/
theorem iblk1_eq (c : Dev nD) (t : Fin cfg0.N) :
    (iblk m c 1 t : Vec Ideal S1024x33 .i32) = tgtBlk (m ((c : Thread nD τ).loc main_arg1)) (tile t) := by
  obtain ⟨-, -, e0, e1, -⟩ := idx_facts t
  funext y
  show V m c main_arg1 (((cfg0.win 1).blk t).view.emb y) = m ((c : Thread nD τ).loc main_arg1) _
  rw [V_main_arg1]
  congr 1
  funext a
  apply Fin.ext
  match a with
  | ⟨0, _⟩ => show win0_1.index t (0 : Fin 2) * 1024 + 1 * (y 0).val = 1024 * t.val + (y 0).val; omega
  | ⟨1, _⟩ => show win0_1.index t (1 : Fin 2) * 33 + 1 * (y 1).val = (y 1).val; omega

/-! ## What each point writes back, and the array after the run -/

/-- Entry i of the partial-sum array, for i at position j of tile t's block (row 8t + j₀, lane j₁), is what the body
    leaves for tile t at j. -/
theorem outArr_at (x0 : FVec Ideal S65536x1024 .f32) (x1 : IVec S65536x33 32) (t : Fin 64) (j : S8x128.Idx)
    (i : S512x128.Idx) (h0 : (i 0).val = 8 * t.val + (j 0).val) (h1 : (i 1).val = (j 1).val) :
    outArr x0 x1 i = out0_2 (F := Ideal) (prdBlk x0 t) (tgtBlk x1 t) j := by
  have hj : (j 0).val < 8 := idx2_lt0 j
  have ht : tileOf i = t := Fin.ext (by show (i 0).val / 8 = t.val; omega)
  have hw : within i = j := by
    funext a
    match a with
    | ⟨0, _⟩ => exact Fin.ext (by show (i 0).val % 8 = (j 0).val; omega)
    | ⟨1, _⟩ => exact Fin.ext h1
  show out0_2 (F := Ideal) (prdBlk x0 (tileOf i)) (tgtBlk x1 (tileOf i)) (within i) = _
  rw [ht, hw]

/-- What point t writes back is block t of the partial-sum array of the two arguments. -/
theorem flushed_eq (c : Dev nD) (t : Fin cfg0.N) :
    (dats m 0 c).flushed 2 t = ((cfg0.win 2).blk t).view.read (Elt Ideal)
      (outArr (m ((c : Thread nD τ).loc main_arg0)) (m ((c : Thread nD τ).loc main_arg1))) := by
  show (cfg0.win 2).cut (grid0.coords t) ((dats m 0 c).after 2 t) = _
  rw [after0_2, iblk0_eq, iblk1_eq]
  obtain ⟨-, -, -, -, e0, e1⟩ := idx_facts t
  funext j
  show out0_2 (F := Ideal) (prdBlk (m ((c : Thread nD τ).loc main_arg0)) (tile t)) (tgtBlk (m ((c : Thread nD τ).loc main_arg1)) (tile t)) j
    = outArr (m ((c : Thread nD τ).loc main_arg0)) (m ((c : Thread nD τ).loc main_arg1)) (((cfg0.win 2).blk t).view.emb j)
  refine (outArr_at _ _ (tile t) j _ ?_ ?_).symm
  · show win0_2.index t (0 : Fin 2) * 8 + 1 * (j 0).val = 8 * t.val + (j 0).val; omega
  · show win0_2.index t (1 : Fin 2) * 128 + 1 * (j 1).val = (j 1).val; omega

/-- An index of the array is in point t's block iff each coordinate is in the block's range on its axis. -/
theorem mem_blk (t : Fin cfg0.N) (i : S512x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v0).slice (win0_2.rect t)).set ↔ _
  rw [View.set_slice_whole, Rect.mem_set_unit]
  exact Iff.rfl

/-- Every entry is in the block of a point that writes back: row r is in the block of point r / 8. -/
theorem cover (i : S512x128.Idx) :
    ∃ t : Fin cfg0.N, (cfg0.win 2).flush t = true ∧ i ∈ ((cfg0.win 2).blk t).view.set := by
  have hi0 : (i 0).val < 512 := idx2_lt0 i
  have hi1 : (i 1).val < 128 := idx2_lt1 i
  let t : Fin cfg0.N := (⟨(i 0).val / 8, by omega⟩ : Fin 64).cast N_0.symm
  obtain ⟨-, -, -, -, e0, e1⟩ := idx_facts t
  have ht : t.val = (i 0).val / 8 := rfl
  refine ⟨t, flush0_2 t, ?_⟩
  rw [mem_blk]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 128 ≤ (i 1).val ∧ (i 1).val < win0_2.index t (1 : Fin 2) * 128 + 128; omega

/-- The partial-sum array after the run. -/
theorem final (c : Dev nD) : (dats m 0 c).arrAt 2 cfg0.N
    = outArr (m ((c : Thread nD τ).loc main_arg0)) (m ((c : Thread nD τ).loc main_arg1)) :=
  (dats m 0 c).arrAt_eq_of_cover 2 (outArr (m ((c : Thread nD τ).loc main_arg0)) (m ((c : Thread nD τ).loc main_arg1)))
    (fun t _ => flushed_eq m c t) cover

/-! ## The host's sum and quotient, and the run -/

/-- The partial-sum array at an entry, spelt out. -/
theorem outArr_apply (x0 : FVec Ideal S65536x1024 .f32) (x1 : IVec S65536x33 32) (i : S512x128.Idx) :
    outArr x0 x1 i = out0_2 (F := Ideal) (prdBlk x0 (tileOf i)) (tgtBlk x1 (tileOf i)) (within i) := rfl

/-- The result buffer after the host's two operations: the quotient, by the divisor word, of zero plus the total of the
    partial-sum array. -/
theorem tail_result (c : Dev nD) :
    Pipeline.afterTail₀ cfgs (dats m) 0 (V0 m) [hostOps1] c main_v2
      = (fun _ => Ideal.div (Ideal.ofBits .f32 0x00000000#32
          + ∑ i : S512x128.Idx, outArr (m ((c : Thread nD τ).loc main_arg0)) (m ((c : Thread nD τ).loc main_arg1)) i)
          (Ideal.ofBits .f32 0x4C800000#32)) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v0)
      = outArr (m ((c : Thread nD τ).loc main_arg0)) (m ((c : Thread nD τ).loc main_arg1)) :=
    (Pipeline.withArrays_arr spec0 launch0.win.arr_inj c _ _ 2).trans (final m c)
  rw [hw]
  funext j
  rw [hostDivf_apply, hostReduceAdd_apply, Ideal.hostReduceAdd_total _ (fun b => b.elim0)]
  rfl

/-- THE RUN. Every execution of the program ends with the result buffer at the quotient, by the divisor word 2^26, of zero
    plus the sum over all 512 × 128 entries of what the body leaves for the entry's tile at its place inside the tile; the
    two arguments are unchanged. -/
theorem run : θ_run defs (onTc (τ := τ) (main (F := Ideal))) ⟨m, fun _ => 0, ρ⟩ (fun r => ∀ c : Dev nD,
      r.2.mem ((c.tc : Thread nD τ).loc main_v2)
        = (fun _ => Ideal.div (Ideal.ofBits .f32 0x00000000#32 + ∑ i : S512x128.Idx,
            out0_2 (F := Ideal) (prdBlk (m ((c.tc : Thread nD τ).loc main_arg0)) (tileOf i))
              (tgtBlk (m ((c.tc : Thread nD τ).loc main_arg1)) (tileOf i)) (within i))
            (Ideal.ofBits .f32 0x4C800000#32))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨((h c).2 main_v2 (Pipeline.mem_restRefs_of main_v2 (by decide) (by decide))).trans (tail_result m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.ArrayValue

end
-- ==== Proof.CountLaw.lean ====
/-
  The algebra that joins the two programs.

  Counting then weighting is gathering then adding: for one row of real predictions x and 32 masked label words, the sum
  over the columns q of x q times the number of words equal to q is the sum over the slots of x at the slot's word, a slot
  whose word is the mask word −1 contributing nothing. The law moves a factor across a sum, so it is proved in the reals,
  which is where the finiteness of the predictions is used.

  The mean of the tile sums: 64 tile sums, each repeated 1024 times and divided by 1024 · 65536, are the 65536 row losses
  divided by 65536. A row loss may be infinite (the logarithm of zero); the only law used across the sum is that a finite
  non-negative factor distributes over any sum of extended reals.
-/
import Idealize.ShloMosaic.PureOps.Ideal
import Mathlib.Data.EReal.Operations
import Mathlib.Algebra.BigOperators.Fin
import Mathlib.Logic.Equiv.Fin.Basic

noncomputable section

open scoped BigOperators

namespace Cert.Law

open Idealize.ShloMosaic

/-- The reals sit in the extended reals compatibly with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite non-negative factor distributes over any finite sum of extended reals. -/
theorem mul_sum_of_nonneg {ι : Type*} (s : Finset ι) (c : EReal) (hc0 : 0 ≤ c) (hct : c ≠ ⊤) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top hc0 hct, ih]

/-- An extended real added to itself n times is n times it. -/
theorem nsmul_eq_coe_mul (n : ℕ) (y : EReal) : n • y = ((n : ℝ) : EReal) * y := by
  induction n with
  | zero => simp
  | succ n ih =>
    rw [succ_nsmul, ih, Nat.cast_succ, EReal.coe_add, EReal.coe_one,
      EReal.right_distrib_of_nonneg (by exact_mod_cast Nat.cast_nonneg n) zero_le_one, one_mul]

/-! ## Words -/

/-- A word whose signed value lies in [0, 1024) has that value as its unsigned value. -/
theorem word_in_range {w : BitVec 32} (h0 : 0 ≤ w.toInt) (h1 : w.toInt < 1024) :
    w.toNat < 1024 ∧ w.toInt.toNat = w.toNat := by
  have hlt := w.isLt
  rw [BitVec.toInt_eq_toNat_cond] at h0 h1 ⊢
  split_ifs at h0 h1 ⊢ <;> omega

/-- Such a word is the word of column q exactly when q is the column the word names. -/
theorem word_eq_lane {w : BitVec 32} (h0 : 0 ≤ w.toInt) (h1 : w.toInt < 1024) (q : Fin 1024) :
    w = BitVec.ofNat 32 q.val ↔ q.val = min w.toInt.toNat 1023 := by
  obtain ⟨hn, he⟩ := word_in_range h0 h1
  rw [he, Nat.min_eq_left (by omega)]
  constructor
  · intro h
    have := congrArg BitVec.toNat h
    rw [BitVec.toNat_ofNat] at this
    omega
  · intro h
    apply BitVec.eq_of_toNat_eq
    rw [BitVec.toNat_ofNat]
    omega

/-- The mask word −1 is no column's word. -/
theorem mask_ne_lane (q : Fin 1024) : (4294967295#32 : BitVec 32) ≠ BitVec.ofNat 32 q.val := by
  intro h
  have := congrArg BitVec.toNat h
  rw [BitVec.toNat_ofNat] at this
  have hq := q.isLt
  simp at this
  omega

/-- A compare bit, widened to a word and read as a signed integer, is one where the words are equal and zero elsewhere. -/
theorem bit_value (a b : BitVec 32) :
    FloatOps.sitofp (F := Ideal) .f32 ((IntOp.cmpi .eq a b).setWidth 32) = (((if a = b then 1 else 0 : ℝ)) : EReal) := by
  show (((((IntOp.cmpi .eq a b).setWidth 32).toInt : ℝ)) : EReal) = _
  by_cases h : a = b
  · subst h
    simp [IntOp.cmpi]
  · have hb : (a == b) = false := by simpa using h
    simp [IntOp.cmpi, hb, h]

/-! ## Counting then weighting is gathering then adding -/

theorem row_law (x : Fin 1024 → EReal) (hx : ∀ q, ∃ r : ℝ, x q = (r : EReal))
    (m w : Fin 32 → BitVec 32) (valid : Fin 32 → Prop) [DecidablePred valid]
    (hm : ∀ j, m j = if valid j then w j else 4294967295#32)
    (hv : ∀ j, valid j → 0 ≤ (w j).toInt ∧ (w j).toInt < 1024) :
    ∑ q : Fin 1024, x q * ∑ j : Fin 32, (((if m j = BitVec.ofNat 32 q.val then 1 else 0 : ℝ)) : EReal)
      = ∑ j : Fin 32, if valid j then x ⟨min (w j).toInt.toNat 1023, by omega⟩ else 0 := by
  choose xr hxr using hx
  have hL : ∀ q, x q * ∑ j : Fin 32, (((if m j = BitVec.ofNat 32 q.val then 1 else 0 : ℝ)) : EReal)
      = ((xr q * ∑ j : Fin 32, (if m j = BitVec.ofNat 32 q.val then 1 else 0 : ℝ) : ℝ) : EReal) := by
    intro q
    rw [hxr q, ← coe_sum, ← EReal.coe_mul]
  have hR : ∀ j, (if valid j then x ⟨min (w j).toInt.toNat 1023, by omega⟩ else 0)
      = (((if valid j then xr ⟨min (w j).toInt.toNat 1023, by omega⟩ else 0 : ℝ)) : EReal) := by
    intro j
    by_cases hj : valid j
    · rw [if_pos hj, if_pos hj, hxr]
    · rw [if_neg hj, if_neg hj, EReal.coe_zero]
  rw [Finset.sum_congr rfl (fun q _ => hL q), Finset.sum_congr rfl (fun j _ => hR j), ← coe_sum, ← coe_sum]
  refine congrArg (fun r : ℝ => (r : EReal)) ?_
  simp only [Finset.mul_sum]
  rw [Finset.sum_comm]
  refine Finset.sum_congr rfl fun j _ => ?_
  by_cases hj : valid j
  · rw [if_pos hj]
    obtain ⟨h0, h1⟩ := hv j hj
    have hq : ∀ q : Fin 1024, (m j = BitVec.ofNat 32 q.val) ↔ q = ⟨min (w j).toInt.toNat 1023, by omega⟩ := by
      intro q
      rw [hm j, if_pos hj, word_eq_lane h0 h1 q]
      exact ⟨fun h => Fin.ext h, fun h => congrArg Fin.val h⟩
    simp only [hq, mul_ite, mul_one, mul_zero, Finset.sum_ite_eq', Finset.mem_univ, if_true]
  · rw [if_neg hj]
    have hq : ∀ q : Fin 1024, ¬ (m j = BitVec.ofNat 32 q.val) := by
      intro q
      rw [hm j, if_neg hj]
      exact mask_ne_lane q
    simp only [hq, if_false, mul_zero, Finset.sum_const_zero]

/-! ## The mean of the tile sums -/

/-- The f32 word 0x4C800000 is 2^26. -/
theorem word_2p26 : Ideal.ofBits .f32 0x4C800000#32 = ((67108864 : ℝ) : EReal) := by
  simp [Ideal.ofBits, Ideal.ieee, -EReal.coe_mul]; norm_num

/-- The f32 word 0x47800000 is 2^16. -/
theorem word_2p16 : Ideal.ofBits .f32 0x47800000#32 = ((65536 : ℝ) : EReal) := by
  simp [Ideal.ofBits, Ideal.ieee, -EReal.coe_mul]; norm_num

/-- Rows 1024 t + p, for 64 tiles t of 1024 rows p each, are all 65536 rows. -/
def rowEquiv : Fin 64 × Fin 1024 ≃ Fin 65536 := finProdFinEquiv.trans (finCongr (by norm_num))

theorem sum_rows {M : Type*} [AddCommMonoid M] (L : Fin 65536 → M) :
    ∑ b, L b = ∑ t : Fin 64, ∑ p : Fin 1024, L ⟨1024 * t.val + p.val, by omega⟩ := by
  rw [← Equiv.sum_comp rowEquiv L, Fintype.sum_prod_type]
  refine Finset.sum_congr rfl fun t _ => Finset.sum_congr rfl fun p _ => congrArg L (Fin.ext ?_)
  show p.val + 1024 * t.val = 1024 * t.val + p.val
  omega

/-- Output rows 8 t + r, for 64 tiles t of 8 rows r each, are all 512 output rows. -/
def outEquiv : Fin 64 × Fin 8 ≃ Fin 512 := finProdFinEquiv.trans (finCongr (by norm_num))

theorem sum_out_rows {M : Type*} [AddCommMonoid M] (g : Fin 512 → M) :
    ∑ i, g i = ∑ t : Fin 64, ∑ r : Fin 8, g ⟨8 * t.val + r.val, by omega⟩ := by
  rw [← Equiv.sum_comp outEquiv g, Fintype.sum_prod_type]
  refine Finset.sum_congr rfl fun t _ => Finset.sum_congr rfl fun r _ => congrArg g (Fin.ext ?_)
  show r.val + 8 * t.val = 8 * t.val + r.val
  omega

/-- The 512 × 128 output entries, each its tile's number, sum to 1024 times the sum of the 64 tile numbers. -/
theorem sum_out (G : Fin 64 → EReal) :
    ∑ i : Fin 512, ∑ _l : Fin 128, G ⟨i.val / 8, by omega⟩ = ∑ t : Fin 64, (1024 : ℕ) • G t := by
  rw [sum_out_rows]
  refine Finset.sum_congr rfl fun t _ => ?_
  have ht : ∀ r : Fin 8, (⟨(8 * t.val + r.val) / 8, by omega⟩ : Fin 64) = t := fun r => Fin.ext (by
    show (8 * t.val + r.val) / 8 = t.val
    omega)
  simp only [ht, Finset.sum_const, Finset.card_univ, Fintype.card_fin, smul_smul]
  norm_num

/-- Dividing 1024 times a sum by 2^26 is dividing the sum by 2^16. -/
theorem mean_law (T : Fin 64 → EReal) :
    Ideal.div (∑ t : Fin 64, (1024 : ℕ) • T t) (Ideal.ofBits .f32 0x4C800000#32)
      = Ideal.div (∑ t, T t) (Ideal.ofBits .f32 0x47800000#32) := by
  rw [word_2p26, word_2p16, Ideal.div_coe (by norm_num), Ideal.div_coe (by norm_num)]
  simp only [nsmul_eq_coe_mul]
  rw [← mul_sum_of_nonneg _ _ (by exact_mod_cast Nat.cast_nonneg 1024) (EReal.coe_ne_top _), mul_comm, ← mul_assoc,
    ← EReal.coe_mul, mul_comm]
  congr 2
  norm_num

end Cert.Law

end
-- ==== Proof.Spec.lean ====
/-
  The loss both programs compute, as one function of the two argument arrays.

  Row b of the label array holds 32 label slots and, in its last column, a count word n; slot j counts when j < n
  (signed words). A counted label names a column of the prediction array. The row's sum is the sum of the predictions
  at the counted labels' columns; the row's loss is −log (sum + tol); the result is the mean of the 65536 row losses.
  Everything is over the extended reals.
-/
import Idealize.ShloMosaic.PureOps.Ideal
import Idealize.ShloMosaic.Lib.ValueIdx

noncomputable section

open scoped BigOperators

namespace Cert.Spec

open Idealize.ShloMosaic Idealize.ShloMosaic.ValueIdx

/-- The prediction array's shape: 65536 rows of 1024 columns. -/
abbrev SPrd : Shape := ⟨2, ![65536, 1024]⟩
/-- The label array's shape: 65536 rows of 32 label slots and one count word. -/
abbrev STgt : Shape := ⟨2, ![65536, 33]⟩

/-- The label word in slot j of row b. -/
def lab (tgt : IVec STgt 32) (b : Fin 65536) (j : Fin 32) : BitVec 32 := tgt (ix2 b (⟨j.val, by omega⟩ : Fin 33))

/-- Row b's count word: how many of its label slots count. -/
def cnt (tgt : IVec STgt 32) (b : Fin 65536) : BitVec 32 := tgt (ix2 b (⟨32, by omega⟩ : Fin 33))

/-- Slot j of row b counts: j < n, compared as signed words. -/
abbrev Counts (tgt : IVec STgt 32) (b : Fin 65536) (j : Fin 32) : Prop :=
  IntOp.cmpi .slt (BitVec.ofNat 32 j.val) (cnt tgt b) = 1#1

/-- Every counted label is a column index of the prediction array: 0 ≤ label < 1024 as a signed word. -/
def LabelsInRange (tgt : IVec STgt 32) : Prop :=
  ∀ (b : Fin 65536) (j : Fin 32), Counts tgt b j → 0 ≤ (lab tgt b j).toInt ∧ (lab tgt b j).toInt < 1024

/-- Every prediction is a real number. -/
def Finite (prd : SPrd.Idx → EReal) : Prop := ∀ i, ∃ r : ℝ, prd i = (r : EReal)

/-- The column a label word names: the word read signed, clamped into [0, 1023]. -/
def col (w : BitVec 32) : Fin 1024 := ⟨min w.toInt.toNat 1023, by omega⟩

/-- Row b's sum: the predictions of row b at the columns of its counted labels. -/
def rowSum (prd : SPrd.Idx → EReal) (tgt : IVec STgt 32) (b : Fin 65536) : EReal :=
  ∑ j : Fin 32, if Counts tgt b j then prd (ix2 b (col (lab tgt b j))) else 0

/-- The tolerance added under the logarithm: the f32 nearest to 1e-6. -/
def tol : EReal := Ideal.ofBits .f32 0x358637BD#32

/-- Row b's loss: −log (row sum + tol). -/
def rowLoss (prd : SPrd.Idx → EReal) (tgt : IVec STgt 32) (b : Fin 65536) : EReal :=
  -(Ideal.log (rowSum prd tgt b + tol))

/-- The result: the sum of the row losses divided by the number of rows (65536, as the f32 word 0x47800000). -/
def result (prd : SPrd.Idx → EReal) (tgt : IVec STgt 32) : EReal :=
  Ideal.div (∑ b : Fin 65536, rowLoss prd tgt b) (Ideal.ofBits .f32 0x47800000#32)

end Cert.Spec

end
-- ==== Proof.KernelValue.lean ====
/-
  The kernel program's result is the specified loss.

  Every entry of the 512 × 128 output array is the loss of its tile; the tile's loss is the sum of its 1024 row losses;
  a row's weighted count is, by the counting law, the sum of the row's predictions at its counted labels (here the
  predictions must be real and the counted labels column numbers); so the host's sum of the 65536 entries over 2^26 is
  the sum of the 65536 row losses over 2^16.
-/
import proofs.«422857_j44676249813136_2_alg».proof.Proof.KernelTile
import proofs.«422857_j44676249813136_2_alg».proof.Proof.KernelArray
import proofs.«422857_j44676249813136_2_alg».proof.Proof.CountLaw
import proofs.«422857_j44676249813136_2_alg».proof.Proof.Spec

noncomputable section

open scoped BigOperators

namespace Cert.KernelIdeal.ResultValue

open Cert.KernelIdeal Cert.KernelIdeal.Gen Cert.KernelIdeal.Count Cert.KernelIdeal.Tile Cert.KernelIdeal.ArrayValue
open Idealize.ShloMosaic Idealize.ShloMosaic.ValueIdx

theorem offsets_zero : (![0, 0] : Fin 2 → Nat) = fun _ => 0 := funext fun a => by fin_cases a <;> rfl

/-- Every entry of the block the body stores is the tile's loss. -/
theorem out_apply (xb0 : Vec Ideal S1024x1024 .f32) (xb1 : Vec Ideal S1024x33 .i32) (y : S8x128.Idx) :
    out0_2 (F := Ideal) xb0 xb1 y = tileB xb0 xb1 := by
  unfold out0_2
  rw [View.canon_unit_zero offsets_zero]
  simp only [View.ld_unit_zero (S := S1024x33) offsets_zero, View.ld_unit_zero (S := S1024x1024) offsets_zero]
  exact pay8_apply xb0 xb1 y

/-! ## The masked labels -/

/-- A compare of two vectors at an index compares the entries. -/
theorem cmpi_apply {s : Shape} {w : ℕ} (pr : CmpIPredicate) (a b : IVec s w) (i : s.Idx) :
    cmpi pr a b i = IntOp.cmpi pr (a i) (b i) := rfl

/-- A 1 × b row spread down a sublanes reads, at (i, j), the row at (0, j). -/
theorem row_spread_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- The label slots of a block: column j of the 33. -/
theorem slots_apply (xb1 : Vec Ideal S1024x33 .i32) (h : S1024x33.Slices ![0, 0] S1024x32) (p : Fin 1024) (j : Fin 32) :
    extractStridedSlice S1024x32 ![0, 0] xb1 h (ix2 p j) = xb1 (ix2 p (⟨j.val, by omega⟩ : Fin 33)) :=
  extractStridedSlice_apply ![0, 0] xb1 h (ix2 p j) (ix2 p (⟨j.val, by omega⟩ : Fin 33)) (fun a => match a with
    | ⟨0, _⟩ => by show p.val = 0 + p.val; omega
    | ⟨1, _⟩ => by show j.val = 0 + j.val; omega)

/-- The count words of a block: column 32 of the 33. -/
theorem counts_apply (xb1 : Vec Ideal S1024x33 .i32) (h : S1024x33.Slices ![0, 32] S1024x1) (p : Fin 1024) (u : Fin 1) :
    extractStridedSlice S1024x1 ![0, 32] xb1 h (ix2 p u) = xb1 (ix2 p (⟨32, by omega⟩ : Fin 33)) :=
  extractStridedSlice_apply ![0, 32] xb1 h (ix2 p u) (ix2 p (⟨32, by omega⟩ : Fin 33)) (fun a => match a with
    | ⟨0, _⟩ => by show p.val = 0 + p.val; omega
    | ⟨1, _⟩ => by show 32 = 32 + u.val; omega)

/-- The masked label (p, j): the label where the slot counts, the word −1 elsewhere. -/
theorem masked_label (xb1 : Vec Ideal S1024x33 .i32) (p : Fin 1024) (j : Fin 32) :
    k0_pay1 (F := Ideal) xb1 (ix2 p j)
      = if IntOp.cmpi .slt (BitVec.ofNat 32 j.val) (xb1 (ix2 p (⟨32, by omega⟩ : Fin 33))) = 1#1
          then xb1 (ix2 p (⟨j.val, by omega⟩ : Fin 33)) else 4294967295#32 := by
  unfold k0_pay1
  simp only [select_apply, cmpi_apply, broadcast_apply, row_spread_apply,
    Idealize.ShloMosaic.RowsCols.broadcastTo_a1_ab_apply]
  have e1 : iota .tc S1x32 32 [1] iota_S1x32_d1_w32 (ix2 (0 : Fin 1) j) = BitVec.ofNat 32 j.val :=
    iota_single_apply .tc S1x32 32 (1 : Fin 2) iota_S1x32_d1_w32 (ix2 (0 : Fin 1) j)
  have e2 := counts_apply xb1 slices_S1024x33_o0_32_S1024x1 p (0 : Fin 1)
  have e3 := slots_apply xb1 slices_S1024x33_o0_0_S1024x32 p j
  rw [e1, e2, e3]
  rfl

/-- One step's addend at entry (p, k): one where the masked label (p, j) is the word of column k. -/
theorem hit_eq (lm : IVec S1024x32 32) (p k : Fin 1024) (j : Fin 32) :
    hit lm lanes p k j.val = (((if lm (ix2 p j) = BitVec.ofNat 32 k.val then 1 else 0 : ℝ)) : EReal) := by
  unfold hit hitBit slot
  have e1 : (⟨j.val % 32, Nat.mod_lt _ (by decide)⟩ : Fin 32) = j := Fin.ext (Nat.mod_eq_of_lt j.isLt)
  have e2 : lanes (ix2 (0 : Fin 1) k) = BitVec.ofNat 32 k.val :=
    iota_single_apply .tc S1x1024 32 (1 : Fin 2) iota_S1x1024_d1_w32 (ix2 (0 : Fin 1) k)
  rw [e1, e2]
  exact Cert.Law.bit_value _ _

/-! ## A row -/

/-- Row p of tile t is row 1024 t + p of the arrays. -/
abbrev rowOf (t : Fin 64) (p : Fin 1024) : Fin 65536 := ⟨1024 * t.val + p.val, by omega⟩

/-- The row's weighted count is the row's sum of counted predictions. -/
theorem rowB_eq (x0 : FVec Ideal S65536x1024 .f32) (x1 : IVec S65536x33 32) (hf : Cert.Spec.Finite x0)
    (hr : Cert.Spec.LabelsInRange x1) (t : Fin 64) (p : Fin 1024) :
    rowB (prdBlk x0 t) (tgtBlk x1 t) p = Cert.Spec.rowSum x0 x1 (rowOf t p) := by
  unfold rowB
  have hcnt : ∀ k : Fin 1024, cnt (tgtBlk x1 t) p k
      = ∑ j : Fin 32, (((if k0_pay1 (F := Ideal) (tgtBlk x1 t) (ix2 p j) = BitVec.ofNat 32 k.val then 1 else 0 : ℝ)) : EReal) := by
    intro k
    unfold cnt
    rw [Finset.sum_range]
    exact Finset.sum_congr rfl fun j _ => hit_eq _ p k j
  rw [Finset.sum_congr rfl (fun k _ => congrArg (fun z => prdBlk x0 t (ix2 p k) * z) (hcnt k))]
  exact Cert.Law.row_law (fun k => x0 (ix2 (rowOf t p) k)) (fun k => hf _)
    (fun j => k0_pay1 (F := Ideal) (tgtBlk x1 t) (ix2 p j)) (fun j => Cert.Spec.lab x1 (rowOf t p) j)
    (fun j => Cert.Spec.Counts x1 (rowOf t p) j)
    (fun j => masked_label (tgtBlk x1 t) p j)
    (fun j hj => hr (rowOf t p) j hj)

/-- The row's loss as the body computes it is the specified row loss. -/
theorem lossB_eq (x0 : FVec Ideal S65536x1024 .f32) (x1 : IVec S65536x33 32) (hf : Cert.Spec.Finite x0)
    (hr : Cert.Spec.LabelsInRange x1) (t : Fin 64) (p : Fin 1024) :
    lossB (prdBlk x0 t) (tgtBlk x1 t) p = Cert.Spec.rowLoss x0 x1 (rowOf t p) := by
  unfold lossB Cert.Spec.rowLoss Cert.Spec.tol
  rw [rowB_eq x0 x1 hf hr t p, zero_sub]

/-! ## The result -/

/-- The kernel program's scalar is the specified loss. -/
theorem kernel_result (x0 : FVec Ideal S65536x1024 .f32) (x1 : IVec S65536x33 32) (hf : Cert.Spec.Finite x0)
    (hr : Cert.Spec.LabelsInRange x1) :
    Ideal.div (Ideal.ofBits .f32 0x00000000#32 + ∑ i : S512x128.Idx,
        out0_2 (F := Ideal) (prdBlk x0 (tileOf i)) (tgtBlk x1 (tileOf i)) (within i)) (Ideal.ofBits .f32 0x4C800000#32)
      = Cert.Spec.result x0 x1 := by
  simp only [out_apply]
  rw [Ideal.ofBits_zero_f32, zero_add, sum_idx2]
  have hT : ∀ t : Fin 64, tileB (prdBlk x0 t) (tgtBlk x1 t) = ∑ p : Fin 1024, Cert.Spec.rowLoss x0 x1 (rowOf t p) :=
    fun t => Finset.sum_congr rfl fun p _ => lossB_eq x0 x1 hf hr t p
  have hsum : (∑ a : Fin 512, ∑ b : Fin 128, tileB (prdBlk x0 (tileOf (ix2 a b))) (tgtBlk x1 (tileOf (ix2 a b))))
      = ∑ t : Fin 64, (1024 : ℕ) • tileB (prdBlk x0 t) (tgtBlk x1 t) :=
    Cert.Law.sum_out (fun t => tileB (prdBlk x0 t) (tgtBlk x1 t))
  rw [hsum, Cert.Law.mean_law]
  unfold Cert.Spec.result
  refine congrArg (fun z => Ideal.div z (Ideal.ofBits .f32 0x47800000#32)) ?_
  rw [Cert.Law.sum_rows]
  exact Finset.sum_congr rfl fun t _ => hT t

end Cert.KernelIdeal.ResultValue

end
-- ==== Proof.PreDecode.lean ====
/-
  What the precondition says, decoded.

  The precondition is the conjunction of two "for all" tests, each the and-reduction of a one-bit array down to a single
  bit. The first array holds, at every entry of the prediction array, the bit |x| < +∞; the second holds, at row b and
  slot j of the label array, the bit "if j < n_b (signed) then 0 ≤ label ∧ label < 1024 (signed) else true", where n_b
  is the last word of row b. An and-reduction that came out 1 met only 1s, so every one of these bits is 1. From the
  first family: every prediction is a real number (an extended real x with max x (−x) < ⊤ is neither ⊤ nor ⊥). From
  the second: a label in a counted slot lies in [0, 1024).
-/
import proofs.«422857_j44676249813136_2_alg».proof.Pre_finite_inputs
import proofs.«422857_j44676249813136_2_alg».proof.Proof.Spec
import Idealize.ShloMosaic.Lib.ReduceAll
import Idealize.ShloMosaic.Lib.Pipeline.Value
import Idealize.ShloMosaic.Lib.IdealHost

noncomputable section

namespace Cert.PreDecode

open Idealize.ShloMosaic Idealize.ShloMosaic.ValueIdx Cert.Pre_finite_inputs

variable [Cert.Pre_finite_inputs.Facts]

/-- The scalar shape has one index. -/
instance : Subsingleton S_.Idx := ⟨fun a b => funext fun d => d.elim0⟩

/-- The label slots of the label array: its first 32 columns. -/
abbrev slots (x1 : IVec S65536x33 32) : IVec S65536x32 32 :=
  extractStridedSlice S65536x32 ![0, 0] x1 Facts.slices_S65536x33_S65536x32_0_0

/-- The count column of the label array: its last column. -/
abbrev counts (x1 : IVec S65536x33 32) : IVec S65536x1 32 :=
  extractStridedSlice S65536x1 ![0, 32] x1 Facts.slices_S65536x33_S65536x1_0_32

/-- Both and-reductions came out 1, so every bit they met is 1. -/
theorem bits_of_pre (x0 : FVec Ideal S65536x1024 .f32) (x1 : IVec S65536x33 32)
    (h : fn (F := Ideal) x0 x1 = fun _ => 1#1) :
    (∀ i : S65536x1024.Idx, Ideal.cmp .olt (max (x0 i) (-(x0 i))) (Ideal.ofBits .f32 0x7F800000#32) = 1#1) ∧
    (∀ i : S65536x32.Idx,
      Scalar.select
        (IntOp.cmpi .slt (iotaInDim S65536x32 32 1 i)
          (broadcastInDim S65536x32 ![0, 1] Facts.bcast_S65536x1_S65536x32_0_1 (counts x1) i))
        (IntOp.andi (IntOp.cmpi .sge (slots x1 i) 0#32) (IntOp.cmpi .slt (slots x1 i) 1024#32)) (1#1 : BitVec 1) = 1#1) := by
  have e := congrFun h ix0
  dsimp only [fn] at e
  obtain ⟨e1, e2⟩ := IntOp.andi_eq_one.1 e
  exact ⟨fun i => Host.reduce_andi_all _ _ _ _ _ e1 i, fun i => Host.reduce_andi_all _ _ _ _ _ e2 i⟩

/-- The f32 word 0x7F800000 is +∞. -/
theorem ofBits_inf : Ideal.ofBits .f32 0x7F800000#32 = (⊤ : EReal) := by simp [Ideal.ofBits, Ideal.ieee]

/-- A one-bit word made from a truth value is 1 exactly when the value is true. -/
theorem ofBool_eq_one {p : Bool} : BitVec.ofBool p = 1#1 ↔ p = true := by cases p <;> decide

/-- An extended real whose absolute value max x (−x) is below +∞ is a real number. -/
theorem real_of_abs_lt_inf (x : EReal)
    (h : Ideal.cmp .olt (max x (-x)) (Ideal.ofBits .f32 0x7F800000#32) = 1#1) : ∃ r : ℝ, x = (r : EReal) := by
  rw [ofBits_inf] at h
  have h' : max x (-x) < ⊤ := by
    unfold Ideal.cmp at h
    exact of_decide_eq_true (ofBool_eq_one.1 h)
  induction x using EReal.rec with
  | bot => simp at h'
  | coe r => exact ⟨r, rfl⟩
  | top => simp at h'

/-- Every prediction is a real number. -/
theorem finite_of_pre (x0 : FVec Ideal Cert.Pre_finite_inputs.S65536x1024 .f32) (x1 : IVec Cert.Pre_finite_inputs.S65536x33 32)
    (h : Cert.Pre_finite_inputs.fn (F := Ideal) x0 x1 = fun _ => 1#1) : Cert.Spec.Finite x0 :=
  fun i => real_of_abs_lt_inf (x0 i) ((bits_of_pre x0 x1 h).1 i)

/-- The label slot (b, j) of the sliced array is the label word of row b, slot j. -/
theorem slots_apply (x1 : IVec S65536x33 32) (b : Fin 65536) (j : Fin 32) :
    slots x1 (ix2 b j) = Cert.Spec.lab x1 b j :=
  extractStridedSlice_apply _ _ _ _ (ix2 b (⟨j.val, by omega⟩ : Fin 33)) fun a => by
    match a with
    | ⟨0, _⟩ => show b.val = 0 + b.val; omega
    | ⟨1, _⟩ => show j.val = 0 + j.val; omega

/-- The count column laid along the 32 slots reads, at (b, j), the count word of row b. -/
theorem counts_apply (x1 : IVec S65536x33 32) (b : Fin 65536) (j : Fin 32) :
    broadcastInDim S65536x32 ![0, 1] Facts.bcast_S65536x1_S65536x32_0_1 (counts x1) (ix2 b j) = Cert.Spec.cnt x1 b := by
  refine (broadcastInDim_apply _ _ _ _ (ix2 b (0 : Fin 1)) fun a => ?_).trans ?_
  · match a with
    | ⟨0, _⟩ => rfl
    | ⟨1, _⟩ => rfl
  · exact extractStridedSlice_apply _ _ _ _ (ix2 b (⟨32, by omega⟩ : Fin 33)) fun a => by
      match a with
      | ⟨0, _⟩ => show b.val = 0 + b.val; omega
      | ⟨1, _⟩ => rfl

/-- Every counted label is in [0, 1024). -/
theorem labelsInRange_of_pre (x0 : FVec Ideal Cert.Pre_finite_inputs.S65536x1024 .f32) (x1 : IVec Cert.Pre_finite_inputs.S65536x33 32)
    (h : Cert.Pre_finite_inputs.fn (F := Ideal) x0 x1 = fun _ => 1#1) : Cert.Spec.LabelsInRange x1 := by
  intro b j hc
  have e := (bits_of_pre x0 x1 h).2 (ix2 b j)
  rw [slots_apply, counts_apply, iotaInDim_apply] at e
  have hc' : IntOp.cmpi .slt (BitVec.ofNat 32 ((ix2 b j : S65536x32.Idx) 1).val) (Cert.Spec.cnt x1 b) = 1#1 := hc
  rw [hc', select_one] at e
  obtain ⟨e0, e1⟩ := IntOp.andi_eq_one.1 e
  exact ⟨IntOp.cmpi_sge.1 e0, IntOp.cmpi_slt.1 e1⟩

end Cert.PreDecode

end
-- ==== Proof.RefTerm.lean ====
/-
  The reference program's result as a composition of four stages of its two arguments.

  labels : the 32 label slots of every row (the label array without its last column).
  mask   : slot j of row b counts, j < n_b, with n_b the row's last column (signed words).
  taken  : take-along-axis of the predictions at the labels: a negative label is moved up by 1024, a label then outside
           [0, 1023] reads the quiet not-a-number word, any other reads the prediction of its row at that column.
  masked : the taken value where the slot counts, zero elsewhere.
  tail   : row sums, plus the tolerance, logarithm, negation, the sum over all rows, divided by 65536.
-/
import proofs.«422857_j44676249813136_2_alg».proof.Proof.Gen.ReferenceIdeal

noncomputable section

namespace Cert.ReferenceIdeal.Stages

open Cert.ReferenceIdeal Cert.ReferenceIdeal.Gen Idealize.ShloMosaic

variable {F : FTy → Type} [FloatOps F]

/-- The label slots: columns 0 … 31 of the label array. -/
def labels (x1 : IVec S65536x33 32) : IVec S65536x32 32 :=
  extractStridedSlice S65536x32 ![0, 0] x1 slices_S65536x33_S65536x32_0_0

/-- Which slots count: the slot number below the row's count word. -/
def mask (x1 : IVec S65536x33 32) : IVec S65536x32 1 :=
  cmpi .slt
    (broadcastInDim S65536x32 ![0, 1] bcast_S1x32_S65536x32_0_1 (broadcastInDim S1x32 ![1] bcast_S32_S1x32_1 (iotaInDim S32 32 0)))
    (broadcastInDim S65536x32 ![0, 1] bcast_S65536x1_S65536x32_0_1 (broadcastInDim S65536x1 ![0] bcast_S65536_S65536x1_0
      (shapeCast S65536 (extractStridedSlice S65536x1 ![0, 32] x1 slices_S65536x33_S65536x1_0_32) shapeCasts_S65536x1_S65536)))

/-- The start indices of the gather: a negative label moved up by 1024, viewed 65536 × 32 × 1. -/
def starts (lab : IVec S65536x32 32) : IVec S65536x32x1 32 :=
  shapeCast S65536x32x1
    (select (cmpi .slt lab (broadcastInDim S65536x32 ![] bcast_S_S65536x32 (constantI S_ 32 0#32)))
      (addi lab (broadcastInDim S65536x32 ![] bcast_S_S65536x32 (constantI S_ 32 1024#32))) lab)
    shapeCasts_S65536x32_S65536x32x1

/-- Which start indices lie inside [0, 1023]. -/
def inBounds (lab : IVec S65536x32 32) : IVec S65536x32 1 :=
  Host.reduce IntOp.andi
    (andi (cmpi .sge (starts lab) (broadcastInDim S65536x32x1 ![] bcast_S_S65536x32x1 (constantI S_ 32 0#32)))
      (cmpi .sle (starts lab) (broadcastInDim S65536x32x1 ![0, 1, 2] bcast_S1x1x1_S65536x32x1_0_1_2
        (broadcastInDim S1x1x1 ![2] bcast_S1_S1x1x1_2 (constantI S1 32 1023#32)))))
    (constantI S_ 1 1#1) reducesTo_S65536x32x1_S65536x32_d2 h_S_

/-- Take-along-axis of the predictions at the labels. -/
def taken (x0 : FVec F S65536x1024 .f32) (lab : IVec S65536x32 32) : FVec F S65536x32 .f32 :=
  select (inBounds lab)
    (Host.gather gather_S65536x1024_S65536x32x1_S65536x32_n_1_0_0_1_2_11 x0 (starts lab))
    (broadcastInDim S65536x32 ![] bcast_S_S65536x32 (constant (F := F) S_ .f32 0x7FC00000#32))

/-- The taken value where the slot counts, zero elsewhere. -/
def masked (msk : IVec S65536x32 1) (tk : FVec F S65536x32 .f32) : FVec F S65536x32 .f32 :=
  select msk tk (broadcastInDim S65536x32 ![] bcast_S_S65536x32 (constant (F := F) S_ .f32 0x00000000#32))

/-- Row sums, plus the tolerance, logarithm, negation, the sum over the rows, divided by 65536. -/
def tail (w : FVec F S65536x32 .f32) : FVec F S_ .f32 :=
  Host.divf
    (Host.reduceAdd
      (Host.negf (Host.log (addf
        (Host.reduceAdd w (constant (F := F) S_ .f32 0x00000000#32) reducesTo_S65536x32_S65536_d1 h_S_)
        (broadcastInDim S65536 ![] bcast_S_S65536 (constant (F := F) S_ .f32 0x358637BD#32)))))
      (constant (F := F) S_ .f32 0x00000000#32) reducesTo_S65536_S_d0 h_S_)
    (constant (F := F) S_ .f32 0x47800000#32)

/-- The reference's result as a function of its two arguments. -/
def result (x0 : FVec F S65536x1024 .f32) (x1 : IVec S65536x33 32) : FVec F S_ .f32 :=
  tail (masked (mask x1) (taken x0 (labels x1)))

end Cert.ReferenceIdeal.Stages

end
-- ==== Proof.RefStages.lean ====
/-
  The reference program's run read as its four stages.

  The program is a straight line of 45 operations; what its last buffer holds after the run is the fold of the
  operations over the launch contents. The line is cut into four consecutive stretches, and each stretch is read, from an
  ARBITRARY valuation of the buffers, as one stage of the two arguments:

    A (the first nine operations)        leaves the label slots and the mask of counting slots, and the predictions as they were;
    B (the take-along-axis, 22 operations) leaves the predictions taken at the labels, and the mask as it was;
    C (three operations)                 leaves the taken values where the slot counts, zero elsewhere;
    D (the last eleven operations)       leaves the mean of the row losses.

  The fold over the whole line is the fold over D from the fold over C from …, so the result buffer holds the composition
  of the four stages at the two arguments.

  Inside B and C an operation is written over references that carry the type of the value they hold, and a value is
  transported to its buffer's own type and back on every write and read. The two transports along one equation cancel;
  a transport along an equation whose two sides are the same type is the identity. Both are removed before a stretch is
  compared with its stage.
-/
import proofs.«422857_j44676249813136_2_alg».proof.Proof.RefRun
import proofs.«422857_j44676249813136_2_alg».proof.Proof.RefTerm
import Idealize.ShloMosaic.Lib.StableHlo.Run

noncomputable section

namespace Cert.ReferenceIdeal.StageRun

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- The fold over a concatenation is the fold over the second list from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- Transport along an equation of types and back along its converse is the identity. -/
theorem cast_cast_cancel {α β : Type} (h : β = α) (h' : α = β) (v : α) : cast h (cast h' v) = v := by
  subst h'; rfl

/-! ## The four stretches -/

/-- The first nine operations: the label slots, the count column broadcast along the rows, the slot numbers broadcast
    along the columns, and their comparison. -/
abbrev opsA : List (HloOp τ sig (Elt F)) :=
  [ unary main_arg1 main_v0 ((extractStridedSlice S65536x32 ![0, 0] · slices_S65536x33_S65536x32_0_0) : (⟨S65536x33, .i32⟩ : BufTy).Contents (Elt F) → (⟨S65536x32, .i32⟩ : BufTy).Contents (Elt F)),
    unary main_arg1 main_v1 ((extractStridedSlice S65536x1 ![0, 32] · slices_S65536x33_S65536x1_0_32) : (⟨S65536x33, .i32⟩ : BufTy).Contents (Elt F) → (⟨S65536x1, .i32⟩ : BufTy).Contents (Elt F)),
    reshape main_v1 main_v2 rfl shapeCasts_S65536x1_S65536,
    nullary main_v3 (iotaInDim S32 32 0),
    unary main_v2 main_v4 (broadcastInDim S65536x1 ![0] bcast_S65536_S65536x1_0 : (⟨S65536, .i32⟩ : BufTy).Contents (Elt F) → (⟨S65536x1, .i32⟩ : BufTy).Contents (Elt F)),
    unary main_v3 main_v5 (broadcastInDim S1x32 ![1] bcast_S32_S1x32_1 : (⟨S32, .i32⟩ : BufTy).Contents (Elt F) → (⟨S1x32, .i32⟩ : BufTy).Contents (Elt F)),
    unary main_v5 main_v6 (broadcastInDim S65536x32 ![0, 1] bcast_S1x32_S65536x32_0_1 : (⟨S1x32, .i32⟩ : BufTy).Contents (Elt F) → (⟨S65536x32, .i32⟩ : BufTy).Contents (Elt F)),
    unary main_v4 main_v7 (broadcastInDim S65536x32 ![0, 1] bcast_S65536x1_S65536x32_0_1 : (⟨S65536x1, .i32⟩ : BufTy).Contents (Elt F) → (⟨S65536x32, .i32⟩ : BufTy).Contents (Elt F)),
    binary main_v6 main_v7 main_v8 (cmpi .slt : (⟨S65536x32, .i32⟩ : BufTy).Contents (Elt F) → (⟨S65536x32, .i32⟩ : BufTy).Contents (Elt F) → (⟨S65536x32, .i1⟩ : BufTy).Contents (Elt F)) ]

/-- The take-along-axis: the start indices (a negative label moved up by 1024), which of them lie in [0, 1023], the
    gather of the predictions at them, and the choice between the gathered value and the quiet not-a-number word. -/
abbrev opsB : List (HloOp τ sig (Elt F)) :=
  [ TRef.nullary (TRef.of (T := ⟨S_, .i32⟩) main_call0_c) (constantI S_ 32 0#32),
    TRef.unary (TRef.of (T := ⟨S_, .i32⟩) main_call0_c) (TRef.of (T := ⟨S65536x32, .i32⟩) main_call0_v0) (broadcastInDim S65536x32 ![] bcast_S_S65536x32),
    TRef.binary (TRef.of (T := ⟨S65536x32, .i32⟩) main_v0) (TRef.of (T := ⟨S65536x32, .i32⟩) main_call0_v0) (TRef.of (T := ⟨S65536x32, .i1⟩) main_call0_v1) (cmpi .slt),
    TRef.nullary (TRef.of (T := ⟨S_, .i32⟩) main_call0_c_0) (constantI S_ 32 1024#32),
    TRef.unary (TRef.of (T := ⟨S_, .i32⟩) main_call0_c_0) (TRef.of (T := ⟨S65536x32, .i32⟩) main_call0_v2) (broadcastInDim S65536x32 ![] bcast_S_S65536x32),
    TRef.binary (TRef.of (T := ⟨S65536x32, .i32⟩) main_v0) (TRef.of (T := ⟨S65536x32, .i32⟩) main_call0_v2) (TRef.of (T := ⟨S65536x32, .i32⟩) main_call0_v3) addi,
    TRef.ternary (TRef.of (T := ⟨S65536x32, .i1⟩) main_call0_v1) (TRef.of (T := ⟨S65536x32, .i32⟩) main_call0_v3) (TRef.of (T := ⟨S65536x32, .i32⟩) main_v0) (TRef.of (T := ⟨S65536x32, .i32⟩) main_call0_v4) select,
    TRef.reshape (TRef.of (T := ⟨S65536x32, .i32⟩) main_call0_v4) (TRef.of (T := ⟨S65536x32x1, .i32⟩) main_call0_v5) rfl shapeCasts_S65536x32_S65536x32x1,
    TRef.nullary (TRef.of (T := ⟨S1, .i32⟩) main_call0_c_1) (constantI S1 32 1023#32),
    TRef.nullary (TRef.of (T := ⟨S_, .i32⟩) main_call0_c_2) (constantI S_ 32 0#32),
    TRef.unary (TRef.of (T := ⟨S_, .i32⟩) main_call0_c_2) (TRef.of (T := ⟨S65536x32x1, .i32⟩) main_call0_v6) (broadcastInDim S65536x32x1 ![] bcast_S_S65536x32x1),
    TRef.binary (TRef.of (T := ⟨S65536x32x1, .i32⟩) main_call0_v5) (TRef.of (T := ⟨S65536x32x1, .i32⟩) main_call0_v6) (TRef.of (T := ⟨S65536x32x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S65536x32x1, .i32⟩) main_call0_v9) (broadcastInDim S65536x32x1 ![0, 1, 2] bcast_S1x1x1_S65536x32x1_0_1_2),
    TRef.binary (TRef.of (T := ⟨S65536x32x1, .i32⟩) main_call0_v5) (TRef.of (T := ⟨S65536x32x1, .i32⟩) main_call0_v9) (TRef.of (T := ⟨S65536x32x1, .i1⟩) main_call0_v10) (cmpi .sle),
    TRef.binary (TRef.of (T := ⟨S65536x32x1, .i1⟩) main_call0_v7) (TRef.of (T := ⟨S65536x32x1, .i1⟩) main_call0_v10) (TRef.of (T := ⟨S65536x32x1, .i1⟩) main_call0_v11) andi,
    TRef.nullary (TRef.of (T := ⟨S_, .i1⟩) main_call0_c_3) (constantI S_ 1 1#1),
    TRef.binary (TRef.of (T := ⟨S65536x32x1, .i1⟩) main_call0_v11) (TRef.of (T := ⟨S_, .i1⟩) main_call0_c_3) (TRef.of (T := ⟨S65536x32, .i1⟩) main_call0_v12) (fun x v => Host.reduce IntOp.andi x v reducesTo_S65536x32x1_S65536x32_d2 h_S_),
    TRef.binary (TRef.of (T := ⟨S65536x1024, .f32⟩) main_arg0) (TRef.of (T := ⟨S65536x32x1, .i32⟩) main_call0_v5) (TRef.of (T := ⟨S65536x32, .f32⟩) main_call0_v13) (fun x i => Host.gather gather_S65536x1024_S65536x32x1_S65536x32_n_1_0_0_1_2_11 x i),
    TRef.nullary (TRef.of (T := ⟨S_, .f32⟩) main_call0_cst) (constant S_ .f32 0x7FC00000#32),
    TRef.unary (TRef.of (T := ⟨S_, .f32⟩) main_call0_cst) (TRef.of (T := ⟨S65536x32, .f32⟩) main_call0_v14) (broadcastInDim S65536x32 ![] bcast_S_S65536x32),
    TRef.ternary (TRef.of (T := ⟨S65536x32, .i1⟩) main_call0_v12) (TRef.of (T := ⟨S65536x32, .f32⟩) main_call0_v13) (TRef.of (T := ⟨S65536x32, .f32⟩) main_call0_v14) (TRef.of (T := ⟨S65536x32, .f32⟩) main_v9) select ]

/-- The masking: zero, broadcast, and the choice between the taken value and zero by the mask. -/
abbrev opsC : List (HloOp τ sig (Elt F)) :=
  [ nullary main_cst (constant S_ .f32 0x00000000#32),
    TRef.unary (TRef.of (T := ⟨S_, .f32⟩) main_cst) (TRef.of (T := ⟨S65536x32, .f32⟩) main_call1_v0) (broadcastInDim S65536x32 ![] bcast_S_S65536x32),
    TRef.ternary (TRef.of (T := ⟨S65536x32, .i1⟩) main_v8) (TRef.of (T := ⟨S65536x32, .f32⟩) main_v9) (TRef.of (T := ⟨S65536x32, .f32⟩) main_call1_v0) (TRef.of (T := ⟨S65536x32, .f32⟩) main_v10) select ]

/-- The tail: the row sums, plus the tolerance, logarithm, negation, the sum over the rows, divided by 65536. -/
abbrev opsD : List (HloOp τ sig (Elt F)) :=
  [ nullary main_cst_0 (constant S_ .f32 0x00000000#32),
    binary main_v10 main_cst_0 main_v11 ((fun x v => Host.reduceAdd x v reducesTo_S65536x32_S65536_d1 h_S_) : (⟨S65536x32, .f32⟩ : BufTy).Contents (Elt F) → (⟨S_, .f32⟩ : BufTy).Contents (Elt F) → (⟨S65536, .f32⟩ : BufTy).Contents (Elt F)),
    nullary main_cst_1 (constant S_ .f32 0x358637BD#32),
    unary main_cst_1 main_v12 (broadcastInDim S65536 ![] bcast_S_S65536 : (⟨S_, .f32⟩ : BufTy).Contents (Elt F) → (⟨S65536, .f32⟩ : BufTy).Contents (Elt F)),
    binary main_v11 main_v12 main_v13 (addf : (⟨S65536, .f32⟩ : BufTy).Contents (Elt F) → (⟨S65536, .f32⟩ : BufTy).Contents (Elt F) → (⟨S65536, .f32⟩ : BufTy).Contents (Elt F)),
    unary main_v13 main_v14 (Host.log : (⟨S65536, .f32⟩ : BufTy).Contents (Elt F) → (⟨S65536, .f32⟩ : BufTy).Contents (Elt F)),
    unary main_v14 main_v15 (Host.negf : (⟨S65536, .f32⟩ : BufTy).Contents (Elt F) → (⟨S65536, .f32⟩ : BufTy).Contents (Elt F)),
    nullary main_cst_2 (constant S_ .f32 0x00000000#32),
    binary main_v15 main_cst_2 main_v16 ((fun x v => Host.reduceAdd x v reducesTo_S65536_S_d0 h_S_) : (⟨S65536, .f32⟩ : BufTy).Contents (Elt F) → (⟨S_, .f32⟩ : BufTy).Contents (Elt F) → (⟨S_, .f32⟩ : BufTy).Contents (Elt F)),
    nullary main_cst_3 (constant S_ .f32 0x47800000#32),
    binary main_v16 main_cst_3 main_v17 (Host.divf : (⟨S_, .f32⟩ : BufTy).Contents (Elt F) → (⟨S_, .f32⟩ : BufTy).Contents (Elt F) → (⟨S_, .f32⟩ : BufTy).Contents (Elt F)) ]

/-- The program's line is the four stretches in order. -/
theorem ops_cut : (ops : List (HloOp τ sig (Elt F))) = opsA ++ (opsB ++ (opsC ++ opsD)) := rfl

/-! ## Each stretch as a stage, from any valuation -/

/-- After A the label buffer holds the label slots of the label array. -/
theorem A_v0 (W : Valuation τ sig (Elt F)) :
    after (opsA (F := F)) W (Proc.devRef .tc main_v0) = Stages.labels (W (Proc.devRef .tc main_arg1)) := by
  after_results_simp
  rfl

/-- After A the mask buffer holds which slots count. -/
theorem A_v8 (W : Valuation τ sig (Elt F)) :
    after (opsA (F := F)) W (Proc.devRef .tc main_v8) = Stages.mask (W (Proc.devRef .tc main_arg1)) := by
  after_results_simp
  rfl

/-- A does not write the predictions. -/
theorem A_arg0 (W : Valuation τ sig (Elt F)) :
    after (opsA (F := F)) W (Proc.devRef .tc main_arg0) = W (Proc.devRef .tc main_arg0) := by
  after_results_simp

set_option maxRecDepth 8192 in
/-- After B its result buffer holds the predictions taken at the labels. -/
theorem B_v9 (W : Valuation τ sig (Elt F)) :
    after (opsB (F := F)) W (Proc.devRef .tc main_v9)
      = Stages.taken (F := F) (W (Proc.devRef .tc main_arg0)) (W (Proc.devRef .tc main_v0)) := by
  after_results_simp
  simp only [TRef.ofBuf, TRef.toBuf, cast_cast_cancel]
  simp only [cast_eq]
  unfold Stages.taken Stages.inBounds Stages.starts
  rfl

/-- B does not write the mask. -/
theorem B_v8 (W : Valuation τ sig (Elt F)) :
    after (opsB (F := F)) W (Proc.devRef .tc main_v8) = W (Proc.devRef .tc main_v8) := by
  after_results_simp

set_option maxRecDepth 8192 in
/-- After C its result buffer holds the taken value where the slot counts, zero elsewhere. -/
theorem C_v10 (W : Valuation τ sig (Elt F)) :
    after (opsC (F := F)) W (Proc.devRef .tc main_v10)
      = Stages.masked (F := F) (W (Proc.devRef .tc main_v8)) (W (Proc.devRef .tc main_v9)) := by
  after_results_simp
  simp only [TRef.ofBuf, TRef.toBuf, cast_cast_cancel]
  simp only [cast_eq]
  unfold Stages.masked
  rfl

/-- After D the result buffer holds the tail of the masked values. -/
theorem D_v17 (W : Valuation τ sig (Elt F)) :
    after (opsD (F := F)) W (Proc.devRef .tc main_v17) = Stages.tail (F := F) (W (Proc.devRef .tc main_v10)) := by
  after_results_simp
  rfl

/-! ## The whole line -/

/-- What the result buffer holds after the whole line, from any valuation: the four stages composed, at what the two
    argument buffers held. -/
theorem fold_eq (V : Valuation τ sig (Elt F)) :
    after (ops (F := F)) V (Proc.devRef .tc main_v17)
      = Stages.result (F := F) (V (Proc.devRef .tc main_arg0)) (V (Proc.devRef .tc main_arg1)) := by
  rw [ops_cut, after_app, after_app, after_app, D_v17, C_v10, B_v8, B_v9, A_v8, A_v0, A_arg0]
  rfl

/-- On every device, for any float values, from any memory with zero counters: every weakly fair execution of the
    program terminates with the result buffer at the four stages composed, at the two arguments, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17) = Stages.result (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (fold_eq (launchContents m c)), (h c).2⟩) (Value.run m ρ)

end Cert.ReferenceIdeal.StageRun

end
-- ==== Proof.LibTakeAlong.lean ====
/-
  A gather along the class axis (jnp.take_along_axis on axis 1) read at one element.

  The operand is an R × C array, the start indices an R × K × 1 array of position words, the result an R × K array.
  Axis 0 is a batching axis of both (row b of the result reads row b of the operand with the words of row b);
  axis 1 of the operand is collapsed and is the one axis the start index map names. So the result at (b, k) is the
  operand at row b and at the column the word at (b, k, 0) names, read signed and clamped into [0, C − 1].
-/
import Idealize.ShloMosaic.PureOps.ShapeOps
import Idealize.ShloMosaic.PureOps.Dims
import Idealize.ShloMosaic.Lib.ValueIdx

noncomputable section

namespace Cert.LibTakeAlong

open Idealize.ShloMosaic Idealize.ShloMosaic.ValueIdx

/-- Entries of an R × C array gathered along axis 1 at R × K position words: result (b, k) is the array at row b and at
    the clamped position of word (b, k, 0). -/
theorem takeAlong_apply {α : Type} {R C K w : Nat} (d : GatherDims ⟨2, ![R, C]⟩ ⟨3, ![R, K, 1]⟩ ⟨2, ![R, K]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![R, C]⟩ : Shape).Idx → α) (idx : IVec ⟨3, ![R, K, 1]⟩ w) (b : Fin R) (k : Fin K) (hC : 0 < C) :
    Host.gather d x idx (ix2 b k)
      = x (ix2 b (⟨min (idx (ix3 b k (0 : Fin 1))).toInt.toNat (C - 1), by omega⟩ : Fin C)) := by
  obtain ⟨od, cd, obd, sbd, sim, ivd, ss, wf⟩ := d
  simp only at hoff hcoll hob hsb hsim hivd
  subst hoff hcoll hob hsb hsim hivd
  generalize hd : (GatherDims.mk [] [1] [0] [0] [1] 2 ss wf : GatherDims ⟨2, ![R, C]⟩ ⟨3, ![R, K, 1]⟩ ⟨2, ![R, K]⟩) = d
  have hcoll : d.collapsedSliceDims = [1] := by subst hd; rfl
  have hob : d.operandBatchingDims = [0] := by subst hd; rfl
  have hsim : d.startIndexMap = [1] := by subst hd; rfl
  have h10 : ¬ ((1 : Fin 2) = 0) := by decide
  have m0 : (0 : Fin 2) ∈ d.operandBatchingDims := by rw [hob]; exact List.mem_singleton.mpr rfl
  have n1 : (1 : Fin 2) ∉ d.operandBatchingDims := by rw [hob]; exact fun h => h10 (List.mem_singleton.mp h)
  have c1 : (1 : Fin 2) ∈ d.collapsedSliceDims := by rw [hcoll]; exact List.mem_singleton.mpr rfl
  have s1 : (1 : Fin 2) ∈ d.startIndexMap := by rw [hsim]; exact List.mem_singleton.mpr rfl
  have k0 : (0 : Fin 2) ∉ d.sKept := fun h => ((GatherDims.mem_sKept _ _).mp h).2 m0
  have k1 : (1 : Fin 2) ∉ d.sKept := fun h => ((GatherDims.mem_sKept _ _).mp h).1 c1
  have h0 : (d.operandIdx (ix2 b k) idx (0 : Fin 2)).val = b.val := by
    show d.start (ix2 b k) idx (0 : Fin 2) + d.batchCoord (ix2 b k) (0 : Fin 2) + d.offCoord (ix2 b k) (0 : Fin 2) = _
    rw [GatherDims.start_batching _ _ _ _ m0, GatherDims.offCoord_eq_zero _ _ _ k0, Nat.zero_add, Nat.add_zero]
    unfold GatherDims.batchCoord
    rw [dif_pos m0]
    subst hd
    rfl
  have h1 : (d.operandIdx (ix2 b k) idx (1 : Fin 2)).val = min (idx (ix3 b k (0 : Fin 1))).toInt.toNat (C - 1) := by
    show d.start (ix2 b k) idx (1 : Fin 2) + d.batchCoord (ix2 b k) (1 : Fin 2) + d.offCoord (ix2 b k) (1 : Fin 2) = _
    rw [GatherDims.batchCoord_eq_zero _ _ _ n1, GatherDims.offCoord_eq_zero _ _ _ k1, Nat.add_zero]
    unfold GatherDims.start
    rw [dif_pos s1, d.slice_collapsed 1 c1]
    have hsi : d.siIdx (ix2 b k) ⟨List.idxOf (1 : Fin 2) d.startIndexMap, List.idxOf_lt_length_iff.2 s1⟩
        = ix3 b k (0 : Fin 1) := by
      subst hd
      funext a
      refine Fin.ext ?_
      match a with
      | ⟨0, _⟩ => rfl
      | ⟨1, _⟩ => rfl
      | ⟨2, _⟩ => rfl
    rw [hsi]
    rfl
  unfold Host.gather
  congr 1
  funext a
  match a with
  | ⟨0, _⟩ => exact Fin.ext h0
  | ⟨1, _⟩ => exact Fin.ext h1

end Cert.LibTakeAlong

end
-- ==== Proof.RefValue.lean ====
/-
  The reference program's stages read index by index at the extended reals, and its result identified with the
  specification's loss.

  Row b of the label array holds 32 label words and a count word. Stage by stage: the label slice at (b, j) is the label
  word in slot j of row b; the mask at (b, j) is the signed comparison "j below the row's count word"; for a counted slot,
  whose label lies in [0, 1023], the start index is the label itself, it is in bounds, and the gather reads the prediction
  of row b at that label's column; an uncounted slot contributes zero whatever was gathered. The tail sums each row's 32
  slots, adds the tolerance, takes minus the logarithm, sums over the 65536 rows and divides by 65536.
-/
import proofs.«422857_j44676249813136_2_alg».proof.Proof.RefTerm
import proofs.«422857_j44676249813136_2_alg».proof.Proof.Spec
import proofs.«422857_j44676249813136_2_alg».proof.Proof.LibTakeAlong
import proofs.«422857_j44676249813136_2_alg».proof.Proof.LibSumIdx
import Idealize.ShloMosaic.Lib.Pipeline.Value
import Idealize.ShloMosaic.Lib.ValueIdx
import Idealize.ShloMosaic.PureOps.Ideal.Laws
import Idealize.ShloMosaic.Lib.ReduceAll
import Idealize.ShloMosaic.Lib.StableHlo.Predicate

noncomputable section

open scoped BigOperators

namespace Cert.ReferenceIdeal.StageValue

open Cert.ReferenceIdeal Cert.ReferenceIdeal.Gen Idealize.ShloMosaic Idealize.ShloMosaic.ValueIdx

/-! ## The label slice and the mask -/

/-- The label slice at (b, j) is the label word in slot j of row b. -/
theorem labels_apply (x1 : IVec S65536x33 32) (b : Fin 65536) (j : Fin 32) :
    Stages.labels x1 (ix2 b j) = Cert.Spec.lab x1 b j := by
  unfold Stages.labels Cert.Spec.lab
  refine extractStridedSlice_apply _ x1 _ (ix2 b j) (ix2 b (⟨j.val, by omega⟩ : Fin 33)) fun a => ?_
  match a with
  | ⟨0, _⟩ => show b.val = 0 + b.val; omega
  | ⟨1, _⟩ => show j.val = 0 + j.val; omega

/-- The slot numbers, an iota laid along each row: at (b, j) the word j. -/
theorem slotNumber_apply (b : Fin 65536) (j : Fin 32) :
    broadcastInDim S65536x32 ![0, 1] bcast_S1x32_S65536x32_0_1
        (broadcastInDim S1x32 ![1] bcast_S32_S1x32_1 (iotaInDim S32 32 0)) (ix2 b j)
      = BitVec.ofNat 32 j.val := by
  refine (broadcastInDim_apply _ _ _ (ix2 b j) (ix2 (0 : Fin 1) j) fun a => ?_).trans ?_
  · match a with
    | ⟨0, _⟩ => rfl
    | ⟨1, _⟩ => rfl
  refine (broadcastInDim_apply _ _ _ (ix2 (0 : Fin 1) j) (ix1 j) fun a => ?_).trans ?_
  · match a with
    | ⟨0, _⟩ => rfl
  rfl

/-- The count column, reshaped to a vector and laid along each row: at (b, j) row b's count word. -/
theorem countWord_apply (x1 : IVec S65536x33 32) (b : Fin 65536) (j : Fin 32) :
    broadcastInDim S65536x32 ![0, 1] bcast_S65536x1_S65536x32_0_1
        (broadcastInDim S65536x1 ![0] bcast_S65536_S65536x1_0
          (shapeCast S65536 (extractStridedSlice S65536x1 ![0, 32] x1 slices_S65536x33_S65536x1_0_32)
            shapeCasts_S65536x1_S65536)) (ix2 b j)
      = Cert.Spec.cnt x1 b := by
  refine (broadcastInDim_apply _ _ _ (ix2 b j) (ix2 b (0 : Fin 1)) fun a => ?_).trans ?_
  · match a with
    | ⟨0, _⟩ => rfl
    | ⟨1, _⟩ => rfl
  refine (broadcastInDim_apply _ _ _ (ix2 b (0 : Fin 1)) (ix1 b) fun a => ?_).trans ?_
  · match a with
    | ⟨0, _⟩ => rfl
  refine (shapeCast_apply _ _ (ix1 b) (ix2 b (0 : Fin 1)) ?_).trans ?_
  · rw [Shape.rowMajor_val_two, Shape.rowMajor_val_one]
    show b.val * 1 + 0 = b.val
    omega
  unfold Cert.Spec.cnt
  refine extractStridedSlice_apply _ x1 _ (ix2 b (0 : Fin 1)) (ix2 b (⟨32, by omega⟩ : Fin 33)) fun a => ?_
  match a with
  | ⟨0, _⟩ => show b.val = 0 + b.val; omega
  | ⟨1, _⟩ => show 32 = 32 + 0; omega

/-- The mask at (b, j): slot j is below row b's count word, as signed words. -/
theorem mask_apply (x1 : IVec S65536x33 32) (b : Fin 65536) (j : Fin 32) :
    Stages.mask x1 (ix2 b j) = IntOp.cmpi .slt (BitVec.ofNat 32 j.val) (Cert.Spec.cnt x1 b) := by
  unfold Stages.mask
  show IntOp.cmpi .slt _ _ = _
  rw [slotNumber_apply, countWord_apply]

/-! ## The start indices of the gather -/

/-- The start index at (b, j, 0): the label at (b, j), moved up by 1024 when it is negative. -/
theorem starts_apply (lab : IVec S65536x32 32) (b : Fin 65536) (j : Fin 32) :
    Stages.starts lab (ix3 b j (0 : Fin 1))
      = Scalar.select (IntOp.cmpi .slt (lab (ix2 b j)) 0#32) (IntOp.addi (lab (ix2 b j)) 1024#32) (lab (ix2 b j)) := by
  unfold Stages.starts
  refine (shapeCast_apply _ _ (ix3 b j (0 : Fin 1)) (ix2 b j) ?_).trans ?_
  · rw [Shape.rowMajor_val_two, Shape.rowMajor_val_three]
    show b.val * 32 + j.val = (b.val * 32 + j.val) * 1 + 0
    omega
  rfl

/-- A label that is not negative is its own start index. -/
theorem starts_of_nonneg (lab : IVec S65536x32 32) (b : Fin 65536) (j : Fin 32) (h0 : 0 ≤ (lab (ix2 b j)).toInt) :
    Stages.starts lab (ix3 b j (0 : Fin 1)) = lab (ix2 b j) := by
  rw [starts_apply]
  have hc : IntOp.cmpi .slt (lab (ix2 b j)) 0#32 = 0#1 := by
    refine eq_zero_of_ne_one fun h => ?_
    have hlt := IntOp.cmpi_slt.1 h
    have hz : (0#32 : BitVec 32).toInt = 0 := by decide
    omega
  rw [hc, select_zero]

/-- `and` on one-bit words commutes … -/
local instance andi_comm : Std.Commutative (IntOp.andi (w := 1)) := ⟨by decide⟩
/-- … and associates. -/
local instance andi_assoc : Std.Associative (IntOp.andi (w := 1)) := ⟨by decide⟩

/-- A fold over a range of one coordinate meets that one coordinate. -/
theorem fold_range_one {α : Type} (f : α → α → α) [Std.Commutative f] [Std.Associative f] (init : α) {n : Nat} (hn : n = 1)
    (g : Fin n → α) : (Finset.univ : Finset (Fin n)).fold f init g = f (g ⟨0, by omega⟩) init := by
  subst hn
  rw [Finset.univ_unique, Finset.fold_singleton]
  rfl

/-- The bounds test at (b, j): the and-reduce runs over the one coordinate of the unit axis, so it is the test
    "0 ≤ start ≤ 1023" of the start index at (b, j, 0). -/
theorem inBounds_of_range (lab : IVec S65536x32 32) (b : Fin 65536) (j : Fin 32)
    (h0 : 0 ≤ (Stages.starts lab (ix3 b j (0 : Fin 1))).toInt)
    (h1 : (Stages.starts lab (ix3 b j (0 : Fin 1))).toInt ≤ 1023) :
    Stages.inBounds lab (ix2 b j) = 1#1 := by
  have hred : S65536x32x1.Reduces [2] S65536x32 := by decide
  unfold Stages.inBounds
  rw [Host.reduce_eq_fold_single IntOp.andi _ _ reducesTo_S65536x32x1_S65536x32_d2 hred h_S_ (ix2 b j)]
  rw [fold_range_one IntOp.andi _ (rfl : S65536x32x1.size 2 = 1)]
  have hl : hred.lift (ix2 b j) (⟨0, by decide⟩ : Fin (S65536x32x1.size 2)) = ix3 b j (0 : Fin 1) := by
    funext a
    match a with
    | ⟨0, _⟩ => rfl
    | ⟨1, _⟩ => rfl
    | ⟨2, _⟩ => rfl
  show IntOp.andi (IntOp.andi (IntOp.cmpi .sge (Stages.starts lab (hred.lift (ix2 b j) ⟨0, _⟩)) 0#32)
    (IntOp.cmpi .sle (Stages.starts lab (hred.lift (ix2 b j) ⟨0, _⟩)) 1023#32)) 1#1 = 1#1
  rw [hl]
  have hz : (0#32 : BitVec 32).toInt = 0 := by decide
  have hk : (1023#32 : BitVec 32).toInt = 1023 := by decide
  exact IntOp.andi_eq_one.2 ⟨IntOp.andi_eq_one.2 ⟨IntOp.cmpi_sge.2 (by omega), IntOp.cmpi_sle.2 (by omega)⟩, rfl⟩

/-! ## The gather -/

/-- For a label in [0, 1023] the taken value at (b, j) is the prediction of row b at the label's column. -/
theorem taken_of_range (x0 : FVec Ideal S65536x1024 .f32) (lab : IVec S65536x32 32) (b : Fin 65536) (j : Fin 32)
    (h0 : 0 ≤ (lab (ix2 b j)).toInt) (h1 : (lab (ix2 b j)).toInt < 1024) :
    Stages.taken (F := Ideal) x0 lab (ix2 b j) = x0 (ix2 b (Cert.Spec.col (lab (ix2 b j)))) := by
  have hs := starts_of_nonneg lab b j h0
  have hin : Stages.inBounds lab (ix2 b j) = 1#1 :=
    inBounds_of_range lab b j (by rw [hs]; exact h0) (by rw [hs]; omega)
  unfold Stages.taken
  rw [select_apply, hin, select_one]
  rw [Cert.LibTakeAlong.takeAlong_apply (R := 65536) (C := 1024) (K := 32)
    gather_S65536x1024_S65536x32x1_S65536x32_n_1_0_0_1_2_11 rfl rfl rfl rfl rfl rfl x0 (Stages.starts lab) b j (by omega)]
  refine congrArg (fun c : Fin 1024 => x0 (ix2 b c)) (Fin.ext ?_)
  show min (Stages.starts lab (ix3 b j (0 : Fin 1))).toInt.toNat (1024 - 1) = min (lab (ix2 b j)).toInt.toNat 1023
  rw [hs]

/-! ## The masked stage -/

/-- The masked stage at (b, j): the prediction of row b at the label's column where slot j counts, zero elsewhere.
    A counted label lies in [0, 1023], so its gather is the plain read; an uncounted slot is zero whatever was taken. -/
theorem masked_apply (x0 : FVec Ideal S65536x1024 .f32) (x1 : IVec S65536x33 32) (hr : Cert.Spec.LabelsInRange x1)
    (b : Fin 65536) (j : Fin 32) :
    Stages.masked (F := Ideal) (Stages.mask x1) (Stages.taken (F := Ideal) x0 (Stages.labels x1)) (ix2 b j)
      = if Cert.Spec.Counts x1 b j then x0 (ix2 b (Cert.Spec.col (Cert.Spec.lab x1 b j))) else 0 := by
  unfold Stages.masked
  rw [select_apply, mask_apply]
  by_cases hc : Cert.Spec.Counts x1 b j
  · have hm : IntOp.cmpi .slt (BitVec.ofNat 32 j.val) (Cert.Spec.cnt x1 b) = 1#1 := hc
    obtain ⟨h0, h1⟩ := hr b j hc
    rw [if_pos hc, hm, select_one,
      taken_of_range x0 (Stages.labels x1) b j (by rw [labels_apply]; exact h0) (by rw [labels_apply]; exact h1), labels_apply]
  · have hm : IntOp.cmpi .slt (BitVec.ofNat 32 j.val) (Cert.Spec.cnt x1 b) = 0#1 := eq_zero_of_ne_one hc
    rw [if_neg hc, hm, select_zero]
    exact Ideal.ofBits_zero_f32

/-! ## The tail -/

/-- A row's sum: the add-reduce over the slot axis at row b is the sum of the row's 32 entries. -/
theorem rowReduce_apply (w : FVec Ideal S65536x32 .f32) (b : Fin 65536) :
    Host.reduceAdd (F := Ideal) w (constant (F := Ideal) S_ .f32 0x00000000#32) reducesTo_S65536x32_S65536_d1 h_S_ (ix1 b)
      = ∑ j : Fin 32, w (ix2 b j) := by
  have hred : S65536x32.Reduces [1] S65536 := by decide
  show Ideal.hostReduceAdd reducesTo_S65536x32_S65536_d1 w (Ideal.ofBits .f32 0x00000000#32) (ix1 b) = _
  rw [Ideal.hostReduceAdd_single _ hred, Ideal.ofBits_zero_f32, zero_add]
  refine Finset.sum_congr rfl fun k _ => congrArg w ?_
  funext a
  match a with
  | ⟨0, _⟩ => rfl
  | ⟨1, _⟩ => rfl

/-- The host's negation at an index, at the extended reals. -/
theorem hostNegf_apply {s : Shape} {φ : FTy} (a : FVec Ideal s φ) (i : s.Idx) : Host.negf a i = -(a i) := rfl

/-- The host's logarithm at an index, at the extended reals. -/
theorem hostLog_apply {s : Shape} {φ : FTy} (a : FVec Ideal s φ) (i : s.Idx) : Host.log a i = Ideal.log (a i) := rfl

/-- The host's division at an index, at the extended reals. -/
theorem hostDivf_apply {s : Shape} {φ : FTy} (a c : FVec Ideal s φ) (i : s.Idx) : Host.divf a c i = Ideal.div (a i) (c i) := rfl

/-- A scalar constant laid over a shape reads the constant's value everywhere. -/
theorem splat_apply {s : Shape} {φ : FTy} (h : S_.BroadcastsInDim s (![] : Fin 0 → Fin s.rank)) (c : BitVec φ.bits) (i : s.Idx) :
    broadcastInDim s ![] h (constant (F := Ideal) S_ φ c) i = Ideal.ofBits φ c := rfl

/-- The tail of the reference at its one index: the mean over the rows of minus the logarithm of the row sum plus
    the tolerance. -/
theorem tail_apply (w : FVec Ideal S65536x32 .f32) (i : S_.Idx) :
    Stages.tail (F := Ideal) w i
      = Ideal.div (∑ b : Fin 65536, -(Ideal.log ((∑ j : Fin 32, w (ix2 b j)) + Ideal.ofBits .f32 0x358637BD#32)))
          (Ideal.ofBits .f32 0x47800000#32) := by
  unfold Stages.tail
  rw [hostDivf_apply, constant_apply]
  refine congrArg (fun s => Ideal.div s (Ideal.ofBits .f32 0x47800000#32)) ?_
  refine (Ideal.hostReduceAdd_total reducesTo_S65536_S_d0 (fun b => b.elim0) _ _ i).trans ?_
  rw [constant_apply, Ideal.ofBits_zero_f32, zero_add, Cert.LibSumIdx.sum_idx1]
  refine Finset.sum_congr rfl fun b _ => ?_
  rw [hostNegf_apply, hostLog_apply, addf_apply, splat_apply, rowReduce_apply]

/-! ## The result -/

/-- The reference's result is the specification's loss, at its one index. -/
theorem result_eq (x0 : FVec Ideal S65536x1024 .f32) (x1 : IVec S65536x33 32) (hr : Cert.Spec.LabelsInRange x1) :
    Stages.result (F := Ideal) x0 x1 = fun _ => Cert.Spec.result x0 x1 := by
  funext i
  unfold Stages.result
  rw [tail_apply]
  unfold Cert.Spec.result Cert.Spec.rowLoss Cert.Spec.rowSum Cert.Spec.tol
  refine congrArg (fun s => Ideal.div s (Ideal.ofBits .f32 0x47800000#32)) (Finset.sum_congr rfl fun b _ => ?_)
  refine congrArg (fun s => -(Ideal.log (s + Ideal.ofBits .f32 0x358637BD#32))) (Finset.sum_congr rfl fun j _ => ?_)
  exact masked_apply x0 x1 hr b j

end Cert.ReferenceIdeal.StageValue

end
-- ==== Proof.lean ====
/-
  Equivalence over the extended reals of a ragged multi-label log-loss kernel and its jnp reference.

  Inputs: predictions prd, 65536 rows of 1024 columns, and labels tgt, 65536 rows of 32 label slots and a count n. The loss of
  a row is −log (s + tol), with s the sum of the row's predictions at the labels of its first n slots, and the result is the mean
  of the 65536 row losses.

  The reference gathers: it takes the prediction at every slot's label (take-along-axis: a negative label wrapped by 1024,
  a label still out of range reading not-a-number), keeps the slots j < n and sums them. The kernel counts: per tile of 1024
  rows it masks the slots j ≥ n to the word −1, builds the 1024 × 1024 matrix whose entry (p, q) is the number of slots of row p
  holding label q — 32 compare-and-add steps in bf16, exact at the extended reals —, multiplies it into the predictions, sums
  each row, takes −log (· + tol) as 0 − log, sums the tile's rows and writes that number to a whole 8 × 128 block; the host sums
  the 512 × 128 entries and divides by 1024 · 65536.

  The two agree where every counted label is a column index in [0, 1024) — the statement's precondition, together with the
  predictions being real: a counted label outside that range the reference wraps or reads as not-a-number while the kernel,
  finding no equal column number, adds nothing. Under it, "counting then weighting is gathering then adding"
  (the sum over columns q of x q · #{j : label j = q} is the sum over slots j of x (label j)) is a law of the reals that moves
  a factor across a sum, which is where finiteness is used; the regrouping of the 65536 row losses into 64 tiles, each repeated
  1024 times, uses only that a finite non-negative factor distributes over sums of extended reals, so infinite row losses
  (the logarithm of zero) are covered. The three frames: the two kernel programs' are the generated frame certificates; the
  reference's is its run with the result dropped. The idealization rewrote nothing, so its preservation claim is trivial.
-/
import proofs.«422857_j44676249813136_2_alg».proof.Defs
import proofs.«422857_j44676249813136_2_alg».proof.Proof.Gen.Kernel
import proofs.«422857_j44676249813136_2_alg».proof.Proof.Gen.Kernel.Skeleton
import proofs.«422857_j44676249813136_2_alg».proof.Proof.Gen.Kernel.Launch
import proofs.«422857_j44676249813136_2_alg».proof.Proof.Gen.Kernel.Points
import proofs.«422857_j44676249813136_2_alg».proof.Proof.Gen.Kernel.Frame
import proofs.«422857_j44676249813136_2_alg».proof.Proof.Gen.KernelIdeal
import proofs.«422857_j44676249813136_2_alg».proof.Proof.Gen.KernelIdeal.Skeleton
import proofs.«422857_j44676249813136_2_alg».proof.Proof.Gen.KernelIdeal.Launch
import proofs.«422857_j44676249813136_2_alg».proof.Proof.Gen.KernelIdeal.Points
import proofs.«422857_j44676249813136_2_alg».proof.Proof.Gen.KernelIdeal.Frame
import proofs.«422857_j44676249813136_2_alg».proof.Proof.Gen.ReferenceIdeal
import proofs.«422857_j44676249813136_2_alg».proof.Proof.Gen.Pre_finite_inputs
import proofs.«422857_j44676249813136_2_alg».proof.Proof.KernelValue
import proofs.«422857_j44676249813136_2_alg».proof.Proof.PreDecode
import proofs.«422857_j44676249813136_2_alg».proof.Proof.RefStages
import proofs.«422857_j44676249813136_2_alg».proof.Proof.RefValue
import Idealize.ShloMosaic.Adequacy
import Idealize.ShloMosaic.Init

noncomputable section

namespace Cert.Proof

open Idealize.ShloMosaic Idealize.SL.Sem

/-- The kernel program runs and leaves its arguments as they were. -/
theorem frame_kernel :
    Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_reference :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.StageRun.run (F := Ideal) m ρ)

/-- At the extended reals both programs end with the specified loss of arguments that agree: the kernel by its run, the
    counting law and the mean of the tile sums; the reference by its run read as its stages. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => fun _ => Cert.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩)
      (Cert.KernelIdeal.ArrayValue.run m ρ)
    funext _
    exact Cert.KernelIdeal.ResultValue.kernel_result _ _
      (Cert.PreDecode.finite_of_pre _ _ (hpre c)) (Cert.PreDecode.labelsInRange_of_pre _ _ (hpre c))
  · refine (θ_run Cert.ReferenceIdeal.defs _ _).mono (fun _ h c => ⟨(h c).1.trans ?_, (h c).2⟩)
      (Cert.ReferenceIdeal.StageRun.run (F := Ideal) m' ρ')
    rw [(hagree c).1, (hagree c).2]
    exact Cert.ReferenceIdeal.StageValue.result_eq _ _ (Cert.PreDecode.labelsInRange_of_pre _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
